-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096x2 : Shape := ⟨3, ![8, 4096, 2]⟩
abbrev S5000x1024 : Shape := ⟨2, ![5000, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S5000x1024 : S_.BroadcastsInDim S5000x1024 (![] : Fin 0 → Fin S5000x1024.rank)
  reducesTo_S5000x1024_S_d0_1 : S5000x1024.ReducesTo [0, 1] S_
  bcast_S_S1024 : S_.BroadcastsInDim S1024 (![] : Fin 0 → Fin S1024.rank)
  reducesTo_S1024_S_d0 : S1024.ReducesTo [0] S_
  bcast_S_S8x4096x2 : S_.BroadcastsInDim S8x4096x2 (![] : Fin 0 → Fin S8x4096x2.rank)
  reducesTo_S8x4096x2_S_d0_1_2 : S8x4096x2.ReducesTo [0, 1, 2] S_

variable [Facts]

def fn_part1 {F : FTy → Type} [FloatOps F] (main_arg1 : IVec S8x4096x2 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_c_6 : IVec S_ 32 := constantI S_ 32 0#32
  let main_v19 : IVec S8x4096x2 32 := broadcastInDim S8x4096x2 ![] bcast_S_S8x4096x2 main_c_6
  let main_v20 : IVec S8x4096x2 1 := cmpi .sge main_arg1 main_v19
  let main_c_7 : IVec S_ 32 := constantI S_ 32 5000#32
  let main_v21 : IVec S8x4096x2 32 := broadcastInDim S8x4096x2 ![] bcast_S_S8x4096x2 main_c_7
  let main_v22 : IVec S8x4096x2 1 := cmpi .slt main_arg1 main_v21
  let main_v23 : IVec S8x4096x2 1 := andi main_v20 main_v22
  let main_c_8 : IVec S_ 1 := constantI S_ 1 1#1
  let main_v24 : IVec S_ 1 := (fun x v => Host.reduce IntOp.andi x v reducesTo_S8x4096x2_S_d0_1_2 h_S_) main_v23 main_c_8
  let main_v25 : IVec S_ 1 := andi main_v18 main_v24
  main_v25

def fn {F : FTy → Type} [FloatOps F] (main_arg0 : FVec F S8x4096x1024 .f32) (main_arg1 : IVec S8x4096x2 32) (main_arg2 : FVec F S5000x1024 .f32) (main_arg3 : FVec F S1024 .f32) (main_arg4 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S5000x1024 .f32 := Host.absf main_arg2
  let main_cst_0 : FVec F S_ .f32 := constant S_ .f32 0x7F800000#32
  let main_v5 : FVec F S5000x1024 .f32 := broadcastInDim S5000x1024 ![] bcast_S_S5000x1024 main_cst_0
  let main_v6 : IVec S5000x1024 1 := cmpf .olt main_v4 main_v5
  let main_c_1 : IVec S_ 1 := constantI S_ 1 1#1
  let main_v7 : IVec S_ 1 := (fun x v => Host.reduce IntOp.andi x v reducesTo_S5000x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_v13 main_v16
-- ==== Kernel.lean ====
abbrev S8x4096x1024 : Shape := ⟨3, ![8, 4096, 1024]⟩
abbrev S8x4096x2 : Shape := ⟨3, ![8, 4096, 2]⟩
abbrev S5000x1024 : Shape := ⟨2, ![5000, 1024]⟩
abbrev S1024 : Shape := ⟨1, ![1024]⟩
abbrev S_ : Shape := ⟨0, ![]⟩
abbrev S5120x1024 : Shape := ⟨2, ![5120, 1024]⟩
abbrev S1x256x2 : Shape := ⟨3, ![1, 256, 2]⟩
abbrev S1x256x1024 : Shape := ⟨3, ![1, 256, 1024]⟩
abbrev S1x256x1 : Shape := ⟨3, ![1, 256, 1]⟩
abbrev S256 : Shape := ⟨1, ![256]⟩
abbrev S256x5120 : Shape := ⟨2, ![256, 5120]⟩
abbrev S256x1 : Shape := ⟨2, ![256, 1]⟩
abbrev S256x1024 : Shape := ⟨2, ![256, 1024]⟩
abbrev S1x1024 : Shape := ⟨2, ![1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S8x4096x2, .i32⟩
  | .hbm, ⟨2, _⟩ => ⟨S5000x1024, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S5120x1024, .f32⟩
  | .hbm, ⟨8, _⟩ => ⟨S8x4096x1024, .f32⟩
  | .local _ .vmem, ⟨0, _⟩ => ⟨S1x256x2, .i32⟩
  | .local _ .vmem, ⟨1, _⟩ => ⟨S1x256x2, .i32⟩
  | .local _ .vmem, ⟨2, _⟩ => ⟨S1024, .f32⟩
  | .local _ .vmem, ⟨3, _⟩ => ⟨S1024, .f32⟩
  | .local _ .vmem, ⟨4, _⟩ => ⟨S1x256x1024, .f32⟩
  | .local _ .vmem, ⟨5, _⟩ => ⟨S1x256x1024, .f32⟩
  | .local _ .vmem, ⟨6, _⟩ => ⟨S5120x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v21 : BitVec 32 := Scalar.muli arg1 c256_i32
  v21
def k0_off1 (i : grid0.Coords) : Fin 2 → Nat :=
  let arg1 : BitVec 32 := BitVec.ofNat 32 (i 1).val
  let c256_i32 : BitVec 32 := 256#32
  let v21 : BitVec 32 := Scalar.muli arg1 c256_i32
  let v22 : BitVec 32 := v21
  let v23 : Index := Scalar.indexCast v22
  let c0_7 : Index := 0#32
  ![v23.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S5000x1024_S5120x1024_01200_000 : S5000x1024.Pads (![0, 0] : Fin 2 → Nat) ![120, 0] ![0, 0] S5120x1024
  h_S_ : 0 < S_.numel
  inb_S1x256x2_S1x256x1_0_0_0 : ∀ a, (![0, 0, 0] : Fin 3 → Nat) a + S1x256x1.size a ≤ S1x256x2.size a
  h_S1x256x1 : 0 < S1x256x1.numel
  shapeCasts_S1x256x1_S256 : S1x256x1.ShapeCasts S256
  inb_S1x256x2_S1x256x1_0_0_1 : ∀ a, (![0, 0, 1] : Fin 3 → Nat) a + S1x256x1.size a ≤ S1x256x2.size a
  iota_S256x5120_d1_w32 : S256x5120.Iotas .tc 32 [1]
  shapeCasts_S256_S256x1 : S256.ShapeCasts S256x1
  broadcasts_S256x1_S256x5120 : S256x1.Broadcasts S256x5120
  natLt_1_32 : 1 < 32
  inb_S5120x1024_S5120x1024_0_0 : ∀ a, (![0, 0] : Fin 2 → Nat) a + S5120x1024.size a ≤ S5120x1024.size a
  h_S5120x1024 : 0 < S5120x1024.numel
  h_S256x1024 : 0 < S256x1024.numel
  reduces_S256x1024_S256 : S256x1024.Reduces [1] S256
  broadcasts_S256x1_S256x1024 : S256x1.Broadcasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x5120_S5120x1024_S256x1024_1_0_0_1_n_n_wf : DotDims.WF S256x5120 S5120x1024 S256x1024 [1] [0] [0] [1] [] []
  hcc0_scratch1 : 6 + S_.numel ≤ 7
  hrank0 : 0 < grid0.rank
  k0_mult1_dvd : ∀ i : grid0.Coords, 256 ∣ (k0_mult1 i).toNat
  k0_off1_inb : ∀ i : grid0.Coords, ∀ a, (k0_off1 i) a + S256x1024.size a ≤ S5120x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2.size a ≤ S8x4096x2.size a
  hwx0_0 : ∀ i : grid0.Coords, EltTy.bits .i32 = 32 ∨ (Rect.block (s := S8x4096x2) S1x256x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S1024.size a ≤ S1024.size a
  hwx0_1 : ∀ i : grid0.Coords, EltTy.bits .f32 = 32 ∨ (Rect.block (s := S1024) S1024.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1024.size a ≤ S1024.size a
  hwx0_2 : ∀ i : grid0.Coords, EltTy.bits .f32 = 32 ∨ (Rect.block (s := S1024) S1024.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S1x256x1024.size a ≤ S8x4096x1024.size a
  hwx0_3 : ∀ i : grid0.Coords, EltTy.bits .f32 = 32 ∨ (Rect.block (s := S8x4096x1024) S1x256x1024.size (cc0_transform_4 i) (hinb0_3 i)).WholeWords (EltTy.packing .f32)

variable [Facts₀]

abbrev cc0_scratch1 : DmaSems sig S_ := SemArray.consecutive 6 S_ hcc0_scratch1
def dot_S256x5120_S5120x1024_S256x1024_1_0_0_1_n_n : DotDims S256x5120 S5120x1024 S256x1024 where
  lhsContracting := [1]
  rhsContracting := [0]
  lhsNonContracting := [0]
  rhsNonContracting := [1]
  lhsBatch := []
  rhsBatch := []
  wf := dot_S256x5120_S5120x1024_S256x1024_1_0_0_1_n_n_wf

abbrev win0_0 : Pipeline.Window sig grid0 :=
  Pipeline.Window.ofSpec (Memref.whole main_arg1) S1x256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024.size cc0_transform_2 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x1024.size cc0_transform_4 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x4096x2 : Shape := ⟨3, ![8, 4096, 2]⟩
abbrev S5000x1024 : Shape := ⟨2, ![5000, 1024]⟩
abbrev S1024 : Shape := ⟨1, ![1024]⟩
abbrev S4096x1024 : Shape := ⟨2, ![4096, 1024]⟩
abbrev S1x4096x1024 : Shape := ⟨3, ![1, 4096, 1024]⟩
abbrev S8x4096x1 : Shape := ⟨3, ![8, 4096, 1]⟩
abbrev S8x4096 : Shape := ⟨2, ![8, 4096]⟩
abbrev S_ : Shape := ⟨0, ![]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x2, .i32⟩
  | .hbm, ⟨2, _⟩ => ⟨S5000x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S1x4096x1024, .f32⟩
  | .hbm, ⟨7, _⟩ => ⟨S8x4096x1, .i32⟩
  | .hbm, ⟨8, _⟩ => ⟨S8x4096, .i32⟩
  | .hbm, ⟨9, _⟩ => ⟨S8x4096x1, .i32⟩
  | .hbm, ⟨10, _⟩ => ⟨S8x4096, .i32⟩
  | .hbm, ⟨11, _⟩ => ⟨S_, .i32⟩
  | .hbm, ⟨12, _⟩ => ⟨S8x4096, .i32⟩
  | .hbm, ⟨13, _⟩ => ⟨S8x4096, .i1⟩
  | .hbm, ⟨14, _⟩ => ⟨S_, .i32⟩
  | .hbm, ⟨15, _⟩ => ⟨S8x4096, .i32⟩
  | .hbm, ⟨16, _⟩ => ⟨S8x4096, .i32⟩
  | .hbm, ⟨17, _⟩ => ⟨S8x4096, .i32⟩
  | .hbm, ⟨18, _⟩ => ⟨S8x4096x1, .i32⟩
  | .hbm, ⟨19, _⟩ => ⟨S8x4096x1024, .f32⟩
  | .hbm, ⟨20, _⟩ => ⟨S_, .i32⟩
  | .hbm, ⟨21, _⟩ => ⟨S8x4096, .i32⟩
  | .hbm, ⟨22, _⟩ => ⟨S8x4096, .i1⟩
  | .hbm, ⟨23, _⟩ => ⟨S_, .i32⟩
  | .hbm, ⟨24, _⟩ => ⟨S8x4096, .i32⟩
  | .hbm, ⟨25, _⟩ => ⟨S8x4096, .i32⟩
  | .hbm, ⟨26, _⟩ => ⟨S8x4096, .i32⟩
  | .hbm, ⟨27, _⟩ => ⟨S8x4096x1, .i32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S_, .i32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x1, .f32⟩
  | .hbm, ⟨55, _⟩ => ⟨S8x4096x1, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1, .f32⟩
  | .hbm, ⟨68, _⟩ => ⟨S8x4096x1024, .f32⟩
  | .hbm, ⟨69, _⟩ => ⟨S8x4096x1024, .f32⟩
  | .hbm, ⟨70, _⟩ => ⟨S1x1x1024, .f32⟩
  | .hbm, ⟨71, _⟩ => ⟨S8x4096x1024, .f32⟩
  | .hbm, ⟨72, _⟩ => ⟨S8x4096x1024, .f32⟩
  | .hbm, ⟨73, _⟩ => ⟨S1x1x1024, .f32⟩
  | .hbm, ⟨74, _⟩ => ⟨S8x4096x1024, .f32⟩
  | .hbm, ⟨75, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_cst_3 : Ref sig .tc := ⟨.hbm, 56, rfl⟩
abbrev main_call0_v13 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_5 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]

class Facts₀ : Prop where
  slices_S5000x1024_S4096x1024_0_0 : S5000x1024.Slices ![0, 0] S4096x1024
  bcast_S4096x1024_S1x4096x1024_1_2 : S4096x1024.BroadcastsInDim S1x4096x1024 (![1, 2] : Fin 2 → Fin S1x4096x1024.rank)
  slices_S8x4096x2_S8x4096x1_0_0_0 : S8x4096x2.Slices ![0, 0, 0] S8x4096x1
  shapeCasts_S8x4096x1_S8x4096 : S8x4096x1.ShapeCasts S8x4096
  slices_S8x4096x2_S8x4096x1_0_0_1 : S8x4096x2.Slices ![0, 0, 1] S8x4096x1
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S1x4096x1024_S8x4096x1024_0_1_2 : S1x4096x1024.BroadcastsInDim S8x4096x1024 (![0, 1, 2] : Fin 3 → Fin S8x4096x1024.rank)
  reducesTo_S8x4096x1024_S8x4096_d2 : S8x4096x1024.ReducesTo [2] S8x4096
  h_S_ : 0 < S_.numel
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  gather_S5000x1024_S8x4096x1_S8x4096x1024_2_0_n_n_0_2_11024_wf : GatherDims.WF S5000x1024 S8x4096x1 S8x4096x1024 [2] [0] [] [0] [] 2 ![1, 1024]

variable [Facts₀]

def gather_S5000x1024_S8x4096x1_S8x4096x1024_2_0_n_n_0_2_11024 : GatherDims S5000x1024 S8x4096x1 S8x4096x1024 where
  offsetDims := [2]
  collapsedSliceDims := [0]
  operandBatchingDims := []
  startIndicesBatchingDims := []
  startIndexMap := [0]
  indexVectorDim := 2
  sliceSizes := ![1, 1024]
  wf := gather_S5000x1024_S8x4096x1_S8x4096x1024_2_0_n_n_0_2_11024_wf

class Facts : Prop extends Facts₀ where

variable [Facts]
-- ==== Proof.Spec.lean ====
/-
  The function both programs compute, entry by entry over the extended reals.

  A row `e` of 1024 entries is centred by its mean, scaled by the reciprocal square root of its variance plus a
  small constant, multiplied by a gain and shifted by an offset. The row at batch `b`, position `n` is the sum of three
  rows of a table of 5000 rows: row `n` itself, and the two rows named by the pair of position words stored at
  `(b, n)`. A position word names a row the way the host's indexing reads it: a negative word counts back from the
  table's end, and the row is kept inside the table.
-/
import Idealize.ShloMosaic.PureOps.Ideal
import Idealize.ShloMosaic.Lib.ValueIdx

noncomputable section

namespace Cert.RowNorm

open Idealize.ShloMosaic Idealize.ShloMosaic.ValueIdx

/-- The row length 1024 and the small constant under the square root, as both programs' literals denote them. -/
def width : EReal := Ideal.ofBits .f32 0x44800000#32
def eps : EReal := Ideal.ofBits .f32 0x2B8CBCCC#32

/-- A row's mean, its variance about that mean, and the normalised row under a gain `g` and an offset `b`. -/
def mean (e : Fin 1024 → EReal) : EReal := Ideal.div (∑ k, e k) width
def var (e : Fin 1024 → EReal) : EReal := Ideal.div (∑ k, (e k - mean e) * (e k - mean e)) width
def norm (e g b : Fin 1024 → EReal) (h : Fin 1024) : EReal :=
  (e h - mean e) * Ideal.rsqrt (var e + eps) * g h + b h

/-- The table row a position word names. -/
def row (w : BitVec 32) : Fin 5000 :=
  ⟨min (Scalar.select (IntOp.cmpi .slt w 0#32) (IntOp.addi w 5000#32) w).toInt.toNat 4999,
    Nat.lt_succ_of_le (Nat.min_le_right _ _)⟩

/-- A word already inside the table names its own row. -/
theorem row_of_lt (w : BitVec 32) (hw : w.toNat < 5000) : (row w).val = w.toNat := by
  have h0 : IntOp.cmpi .slt w 0#32 = 0#1 := by
    unfold IntOp.cmpi
    have : w.slt 0#32 = false := by
      simp only [BitVec.slt, decide_eq_false_iff_not, not_lt]
      unfold BitVec.toInt; simp; omega
    simp [this]
  have h1 : w.toInt.toNat = w.toNat := by
    unfold BitVec.toInt; split <;> omega
  show min (Scalar.select (IntOp.cmpi .slt w 0#32) (IntOp.addi w 5000#32) w).toInt.toNat 4999 = _
  rw [h0]
  show min w.toInt.toNat 4999 = _
  rw [h1]; omega

/-- The summed row at batch `b`, position `n`. -/
def emb (sent : (⟨3, ![8, 4096, 2]⟩ : Shape).Idx → BitVec 32) (pe : (⟨2, ![5000, 1024]⟩ : Shape).Idx → EReal)
    (b : Fin 8) (n : Fin 4096) : Fin 1024 → EReal := fun h =>
  pe (ix2 ⟨n.val, lt_trans n.isLt (by decide)⟩ h)
    + (pe (ix2 (row (sent (ix3 b n 0))) h) + pe (ix2 (row (sent (ix3 b n 1))) h))

/-- THE RESULT: entry `(b, n, h)` is entry `h` of the normalised summed row at `(b, n)`. -/
def G (sent : (⟨3, ![8, 4096, 2]⟩ : Shape).Idx → BitVec 32) (pe : (⟨2, ![5000, 1024]⟩ : Shape).Idx → EReal)
    (gamma beta : (⟨1, ![1024]⟩ : Shape).Idx → EReal) : (⟨3, ![8, 4096, 1024]⟩ : Shape).Idx → EReal := fun j =>
  norm (emb sent pe (j 0) (j 1)) (fun h => gamma (ix1 h)) (fun h => beta (ix1 h)) (j 2)

end Cert.RowNorm

end
-- ==== Proof.KernelPieces.lean ====
/-
  What the kernel body leaves at each grid point, as values.

  The body keeps a copy of the whole padded table in a buffer of its own: at the first point of every batch row it
  copies the table in, and at the other points the buffer still holds what the point before left. So after every
  point the buffer holds the table the region found, and the block a point stores is ONE function of that point's
  block of position words, the gain, the offset and the table: the body's arithmetic over four reads (the two columns
  of the words' block, the whole table, and the 256 table rows starting at 256 times the point's second coordinate).
-/
import proofs.«428590_j52295521796615_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

section Whole
variable {Val : EltTy → Type} [∀ e, Nonempty (Val e)] {S : Shape} {e : EltTy}

/-- One write through the whole-shape rectangle covers every index, -/
theorem cover_whole (w : S.Idx → Val e) (y : S.Idx) :
    ∃ p ∈ [(⟨Rect.whole S, w⟩ : View.Piece Val S e)], y ∈ p.1.set :=
  ⟨_, List.mem_singleton_self _, by show y ∈ (Rect.whole S).set; rw [Rect.set_whole]; exact Finset.mem_univ y⟩

/-- and leaves its payload. -/
theorem canon_whole (w : S.Idx → Val e) : View.canon [(⟨Rect.whole S, w⟩ : View.Piece Val S e)] = w :=
  View.canon_unit_zero (off := fun _ => 0) rfl (fun _ => by simp) w
end Whole

/-- THE BLOCK A POINT STORES, as a function of the point's coordinates `i`, its block `x0` of position words, the
    gain `x1`, the offset `x2` and the table `scr` the body's own buffer holds. -/
def blockOut (i : grid0.Coords) (x0 : Vec F S1x256x2 .i32) (x1 x2 : Vec F S1024 .f32) (scr : Vec F S5120x1024 .f32) :
    Vec F S1x256x1024 .f32 :=
  k0_pay1
    (k0_pay4 (View.ld x0 (Rect.unit (s := S1x256x2) ![0, 0, 0] S1x256x1.size inb_S1x256x2_S1x256x1_0_0_0))
      (View.ld x0 (Rect.unit (s := S1x256x2) ![0, 0, 1] S1x256x1.size inb_S1x256x2_S1x256x1_0_0_1))
      scr (View.ld scr (Rect.unit (s := S5120x1024) (k0_off1 i) S256x1024.size (k0_off1_inb i))))
    (k0_pay5 (View.ld x0 (Rect.unit (s := S1x256x2) ![0, 0, 0] S1x256x1.size inb_S1x256x2_S1x256x1_0_0_0))
      (View.ld x0 (Rect.unit (s := S1x256x2) ![0, 0, 1] S1x256x1.size inb_S1x256x2_S1x256x1_0_0_1))
      scr (View.ld scr (Rect.unit (s := S5120x1024) (k0_off1 i) S256x1024.size (k0_off1_inb i))))
    (Scalar.ofBits .f32 0x2B8CBCCC#32) x1 x2

/-- At a point that copies the table in, the stored block is `blockOut` at the table just copied: both reads of the
    buffer come after the copy has landed. -/
theorem out_A (c : Dev nD) (i : grid0.Coords) (arg2 : Memref sig .tc .vmem S1x256x2 .i32) (harg2 : arg2.IsWhole) (arg4 : Memref sig .tc .vmem S1024 .f32) (harg4 : arg4.IsWhole) (arg5 : Memref sig .tc .vmem S1024 .f32) (harg5 : arg5.IsWhole) (arg6 : Memref sig .tc .vmem S1x256x1024 .f32) (harg6 : arg6.IsWhole) (arg7 : Memref sig .tc .vmem S5120x1024 .f32) (harg7 : arg7.IsWhole) (hc0 : cond0_0 i)
    (x0 : Vec F S1x256x2 .i32) (x1 : Vec F S1024 .f32) (x2 : Vec F S1024 .f32) (fh0 : HbBuf0 (F := F) c hbM0_0) :
    out0_A_3 c i arg2 harg2 arg4 harg4 arg5 harg5 arg6 harg6 arg7 harg7 hc0 x0 x1 x2 fh0 = blockOut i x0 x1 x2 fh0 := by
  unfold out0_A_3
  rw [View.read_writes_eq_canon _ _ _ (cover0_A_3 c i arg2 harg2 arg4 harg4 arg5 harg5 arg6 harg6 arg7 harg7 hc0 x0 x1 x2 fh0)]
  unfold kernelRun0_A
  dsimp only
  sl_unfold_words
  rw [View.canon_unit_zero hz3]
  simp only [View.readCov_eq_canon_ld _ _ _ (cover_whole _), View.readAt_eq_ld, View.read_writes_eq_canon _ _ _ (cover_whole _),
    canon_whole, harg2.read_unread, harg4.read_unread, harg5.read_unread, View.ld_unit_zero (S := S1024) hz1,
    View.ld_unit_zero (S := S5120x1024) hz2]
  rfl

/-- At such a point the buffer ends holding the table copied in. -/
theorem sout_A (c : Dev nD) (i : grid0.Coords) (arg2 : Memref sig .tc .vmem S1x256x2 .i32) (harg2 : arg2.IsWhole) (arg4 : Memref sig .tc .vmem S1024 .f32) (harg4 : arg4.IsWhole) (arg5 : Memref sig .tc .vmem S1024 .f32) (harg5 : arg5.IsWhole) (arg6 : Memref sig .tc .vmem S1x256x1024 .f32) (harg6 : arg6.IsWhole) (arg7 : Memref sig .tc .vmem S5120x1024 .f32) (harg7 : arg7.IsWhole) (hc0 : cond0_0 i)
    (x0 : Vec F S1x256x2 .i32) (x1 : Vec F S1024 .f32) (x2 : Vec F S1024 .f32) (fh0 : HbBuf0 (F := F) c hbM0_0) :
    sout0_A_0 c i arg2 harg2 arg4 harg4 arg5 harg5 arg6 harg6 arg7 harg7 hc0 x0 x1 x2 fh0 = fh0 := by
  unfold sout0_A_0
  rw [View.read_writes_eq_canon _ _ _ (scover0_A_0 c i arg2 harg2 arg4 harg4 arg5 harg5 arg6 harg6 arg7 harg7 hc0 x0 x1 x2 fh0)]
  unfold kernelRun0_A
  dsimp only
  sl_unfold_words
  rw [canon_whole]
  rfl

/-- At any other point the stored block is `blockOut` at what the buffer held when the point began. -/
theorem out_B (c : Dev nD) (i : grid0.Coords) (arg2 : Memref sig .tc .vmem S1x256x2 .i32) (harg2 : arg2.IsWhole) (arg4 : Memref sig .tc .vmem S1024 .f32) (harg4 : arg4.IsWhole) (arg5 : Memref sig .tc .vmem S1024 .f32) (harg5 : arg5.IsWhole) (arg6 : Memref sig .tc .vmem S1x256x1024 .f32) (harg6 : arg6.IsWhole) (arg7 : Memref sig .tc .vmem S5120x1024 .f32) (harg7 : arg7.IsWhole) (hc0 : ¬cond0_0 i)
    (x0 : Vec F S1x256x2 .i32) (x1 : Vec F S1024 .f32) (x2 : Vec F S1024 .f32) (xs0 : Vec F S5120x1024 .f32) (fh0 : HbBuf0 (F := F) c hbM0_0) :
    out0_B_3 c i arg2 harg2 arg4 harg4 arg5 harg5 arg6 harg6 arg7 harg7 hc0 x0 x1 x2 xs0 fh0 = blockOut i x0 x1 x2 xs0 := by
  unfold out0_B_3
  rw [View.read_writes_eq_canon _ _ _ (cover0_B_3 c i arg2 harg2 arg4 harg4 arg5 harg5 arg6 harg6 arg7 harg7 hc0 x0 x1 x2 xs0 fh0)]
  unfold kernelRun0_B
  dsimp only
  sl_unfold_words
  rw [View.canon_unit_zero hz3]
  simp only [View.readAt_eq_ld, harg2.read_unread, harg4.read_unread, harg5.read_unread, harg7.read_unread,
    View.ld_unit_zero (S := S1024) hz1, View.ld_unit_zero (S := S5120x1024) hz2]
  rfl

variable (m : (ℓ : Loc nD τ sig) → Buf (Elt F) ℓ)

/-- The table the region finds, at the buffer's literal type. -/
abbrev table (c : Dev nD) : Vec F S5120x1024 .f32 := V m c main_v0

/-- AFTER EVERY POINT THE BUFFER HOLDS THE TABLE: a point that copies leaves it, any other point leaves what the point
    before left. By induction on the point. -/
theorem scratch_eq (c : Dev nD) : ∀ (n : ℕ) (h : n < cfg0.N), (outsAt0 m c n h).2 = table m c
  | 0, h => by
    rw [outsAt0_A m c ⟨0, h⟩ (Nat.zero_mod _)]
    dsimp only
    exact sout_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr (Nat.zero_mod _)) (iblk m c 0 ⟨0, h⟩) (iblk m c 1 ⟨0, h⟩) (iblk m c 2 ⟨0, h⟩) (V m c main_v0)
  | n + 1, h => by
    by_cases h0 : (n + 1) % 16 = 0
    · rw [outsAt0_A m c ⟨n + 1, h⟩ h0]
      dsimp only
      exact sout_A (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩) (V m c main_v0)
    · rw [outsAt0_B m c ⟨n + 1, h⟩ h0]
      dsimp only
      unfold sout0_B_0
      exact scratch_eq c n (Nat.lt_of_succ_lt h)

/-- SO EVERY POINT STORES `blockOut` of its own blocks and the table. -/
theorem out_eq (c : Dev nD) (t : Fin cfg0.N) :
    (outsAt0 m c t.val t.isLt).1
      = blockOut (grid0.coords t) (iblk m c 0 t) (iblk m c 1 t) (iblk m c 2 t) (table m c) := by
  by_cases h0 : t.val % 16 = 0
  · rw [outsAt0_A m c t h0]
    dsimp only
    exact out_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t) (V m c main_v0)
  · rw [outsAt0_B m c t h0]
    dsimp only
    rw [out_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2 (V m c main_v0),
      scratch_eq m c (t.val - 1) (Nat.lt_of_le_of_lt (Nat.sub_le _ _) t.isLt)]

end Cert.KernelIdeal.Pieces

end
-- ==== Proof.KernelHost.lean ====
/-
  The kernel program's memory before its one kernel region, at the ideal values. Two facts.

  (I) Before the region the program writes a zero word, converts it to a float, and pads the argument
  table [5000, 1024] by that value with 120 rows at the high end of axis 0 (no low padding, no interior
  padding). So the table the region finds, [5120, 1024], read at row k and column h, is the argument
  table at (k, h) when k < 5000, and the converted zero — the real number 0 — when 5000 ≤ k.

  (II) The precondition is a conjunction of and-reductions; its last conjunct reduces, over every entry
  of the position array [8, 4096, 2], the conjunction of the signed compares 0 ≤ w and w < 5000. The
  precondition being all ones therefore says of every position word w that 0 ≤ w < 5000 signed, and a
  32-bit word in that signed range is below 5000 as a natural number.
-/
import proofs.«428590_j52295521796615_1_alg».proof.Defs
import proofs.«428590_j52295521796615_1_alg».proof.Proof.Gen.KernelIdeal.Frame
import proofs.«428590_j52295521796615_1_alg».proof.Proof.Gen.Pre_finite_inputs
import Idealize.ShloMosaic.Lib.ReduceAll
import Idealize.ShloMosaic.Lib.ValueIdx
import Idealize.ShloMosaic.Lib.KernelVsHost

noncomputable section

namespace Cert.KernelIdeal.HostSide

open Cert.KernelIdeal Cert.KernelIdeal.Gen
open Idealize.ShloMosaic Idealize.ShloMosaic.TcCoe Idealize.ShloMosaic.ValueIdx Idealize.SL.Sem

/-! ## (I) The padded table -/

/-- The table padded with 120 rows read at one entry: a row below the operand's 5000 rows reads the
    operand there (no low padding, no interior step, so the padded coordinates are the operand's own);
    a row at or past 5000 lies in the high padding and reads the fill value. -/
theorem pad_read (x : S5000x1024.Idx → EReal) (v : S_.Idx → EReal)
    (hp : S5000x1024.Pads (![0, 0] : Fin 2 → Nat) ![120, 0] ![0, 0] S5120x1024) (hu : 0 < S_.numel)
    (k : Fin 5120) (h : Fin 1024) :
    pad S5120x1024 ![0, 0] ![120, 0] ![0, 0] x v hp hu (ix2 k h)
      = if hk : k.val < 5000 then x (ix2 ⟨k.val, hk⟩ h) else v ix0 := by
  by_cases hk : k.val < 5000
  · rw [dif_pos hk]
    refine pad_apply_of_inside _ _ _ x v hp hu _ (ix2 ⟨k.val, hk⟩ h) (fun a => ?_)
    match a with
    | ⟨0, _⟩ =>
      show k.val = 0 + k.val * (0 + 1)
      omega
    | ⟨1, _⟩ =>
      show h.val = 0 + h.val * (0 + 1)
      omega
  · rw [dif_neg hk]
    rw [pad_apply_of_not_inside _ _ _ x v hp hu _ (0 : Fin 2) ?_, eq_ix0 (Shape.Idx.first hu)]
    show ¬(0 ≤ k.val ∧ (k.val - 0) % (0 + 1) = 0 ∧ (k.val - 0) / (0 + 1) < 5000)
    omega

/-- The fill value: the zero word converted to a float is, at the ideal values, the integer 0 as a real. -/
theorem fill_zero : (sitofp (F := Ideal) .f32 (constantI S_ 32 0#32) : S_.Idx → EReal) ix0 = 0 := by
  show ((((0#32 : BitVec 32).toInt : ℤ) : ℝ) : EReal) = 0
  simp

variable (m : (ℓ : Loc nD τ sig) → Buf (Elt Ideal) ℓ)

/-- What the region finds in the padded table's buffer: the two host operations before it, the zero
    word converted to a float and the pad by it, applied to the argument table as launched. -/
theorem table_eq (c : Dev nD) :
    (V m c main_v0 : S5120x1024.Idx → EReal)
      = pad S5120x1024 ![0, 0] ![120, 0] ![0, 0]
          (m ((c : Thread nD τ).loc main_arg2) : S5000x1024.Idx → EReal)
          (sitofp (F := Ideal) .f32 (constantI S_ 32 0#32) : S_.Idx → EReal)
          Facts₀.pads_S5000x1024_S5120x1024_01200_000 Facts₀.h_S_ := by
  dsimp only [Gen.V]
  simp only [Gen.hostOps0, Gen.hostOps0_1, List.flatten_cons, List.flatten_nil, List.append_nil, List.cons_append,
    List.nil_append]
  after_results
  rfl

/-- THE TABLE THE REGION FINDS, at one entry: the argument table below row 5000, zero from there on. -/
theorem table_apply (c : Dev nD) (k : Fin 5120) (h : Fin 1024) :
    (V m c main_v0 : S5120x1024.Idx → EReal) (ix2 k h)
      = (if hk : k.val < 5000 then (m ((c : Thread nD τ).loc main_arg2) : S5000x1024.Idx → EReal) (ix2 ⟨k.val, hk⟩ h)
          else 0 : EReal) := by
  rw [table_eq m c, pad_read, fill_zero]

/-! ## (II) The position words -/

/-- A word in [0, 5000) read signed is below 5000 read unsigned: nonnegative signed means the top bit
    is clear, and then the two readings agree. -/
theorem toNat_lt_of_signed (w : BitVec 32) (h0 : IntOp.cmpi .sge w 0#32 = 1#1)
    (h1 : IntOp.cmpi .slt w 5000#32 = 1#1) : w.toNat < 5000 := by
  rw [IntOp.cmpi_sge] at h0
  rw [IntOp.cmpi_slt] at h1
  have z : (0#32 : BitVec 32).toInt = 0 := by decide
  have f : (5000#32 : BitVec 32).toInt = 5000 := by decide
  rw [z] at h0
  rw [f] at h1
  have hw := w.isLt
  rw [BitVec.toInt_eq_toNat_cond] at h0 h1
  split at h0 <;> omega

/-- The scalar shape has one index. -/
instance : Subsingleton Cert.Pre_finite_inputs.S_.Idx := ⟨fun a b => funext fun d => d.elim0⟩

/-- The precondition decoded at one position word. The printed predicate is a conjunction whose last
    conjunct is the and-reduction, over every entry of the position array, of "0 ≤ word" and
    "word < 5000" (both signed); all ones means that conjunct is one, hence each entry's two compares
    are one, hence the word is below 5000 as a natural number. -/
theorem words_lt (hpre : Cert.Pre_KernelIdeal m) (c : Dev nD) (i : S8x4096x2.Idx) :
    ((m ((c.tc : Thread nD τ).loc main_arg1) : S8x4096x2.Idx → BitVec 32) i).toNat < 5000 := by
  have e := congrFun (hpre c) ix0
  unfold Cert.Pre_finite_inputs.fn at e
  dsimp only at e
  unfold Cert.Pre_finite_inputs.fn_part1 at e
  dsimp only at e
  have e2 := (IntOp.andi_eq_one.1 e).2
  have e3 := Host.reduce_andi_all _ _ _ _ _ e2 i
  obtain ⟨h0, h1⟩ := IntOp.andi_eq_one.1 e3
  exact toNat_lt_of_signed _ h0 h1

end Cert.KernelIdeal.HostSide

end
-- ==== Proof.KernelPayload.lean ====
/-
  The kernel body's arithmetic read at one entry, over the extended reals.

  Two columns of position words are each compared with the column numbers 0 … 5119, the two 0/1 masks are added, and
  the resulting matrix (a row of which holds a one at each word's column, a two where the words agree) is multiplied
  into a table of 5120 rows. A sum against a row of that kind picks out table rows: entry (r, h) of the product is
  the table's entry h of the row the first word names plus that of the row the second names. With a block of 256
  table rows added in front, each row of 1024 entries is then centred by its mean, scaled by the reciprocal square
  root of its variance plus a small constant, multiplied by a gain and shifted by an offset: the specification's
  normalised row.
-/
import proofs.«428590_j52295521796615_1_alg».proof.Proof.Gen.KernelIdeal.Skeleton
import proofs.«428590_j52295521796615_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Data.EReal.Operations
import Mathlib.Algebra.BigOperators.Group.Finset.Basic

noncomputable section

namespace Cert.KernelIdeal.Payload

open Cert.KernelIdeal Cert.KernelIdeal.Gen Idealize.ShloMosaic Idealize.ShloMosaic.ValueIdx
open scoped BigOperators

/-! ## Sums against 0/1 rows, over the extended reals

The extended reals' product does not distribute over sums in general, but it does over a sum of two non-negative
factors; a 0/1 row's factors are non-negative, so no finiteness of the table's entries is needed. -/

/-- A sum against the row that is one at `a` and zero elsewhere is the summand at `a`. -/
theorem sum_oneHot_mul {n : ℕ} (a : Fin n) (x : Fin n → EReal) :
    ∑ k : Fin n, (if a.val = k.val then (1 : EReal) else 0) * x k = x a := by
  rw [Finset.sum_eq_single a]
  · rw [if_pos rfl, one_mul]
  · intro k _ hk
    rw [if_neg (fun e => hk (Fin.ext e.symm)), zero_mul]
  · intro ha
    exact absurd (Finset.mem_univ a) ha

/-- A 0/1 entry is non-negative. -/
theorem oneHot_nonneg (p : Prop) [Decidable p] : (0 : EReal) ≤ if p then (1 : EReal) else 0 := by
  split
  · exact zero_le_one
  · exact le_refl _

/-- A sum against the SUM of two such rows is the sum of the two summands they pick. -/
theorem sum_twoHot_mul {n : ℕ} (a b : Fin n) (x : Fin n → EReal) :
    ∑ k : Fin n, ((if a.val = k.val then (1 : EReal) else 0) + (if b.val = k.val then (1 : EReal) else 0)) * x k
      = x a + x b := by
  have hd : ∀ k : Fin n,
      ((if a.val = k.val then (1 : EReal) else 0) + (if b.val = k.val then (1 : EReal) else 0)) * x k
        = (if a.val = k.val then (1 : EReal) else 0) * x k + (if b.val = k.val then (1 : EReal) else 0) * x k :=
    fun k => EReal.right_distrib_of_nonneg (oneHot_nonneg _) (oneHot_nonneg _)
  rw [Finset.sum_congr rfl fun k _ => hd k, Finset.sum_add_distrib, sum_oneHot_mul, sum_oneHot_mul]

/-! ## Layout operations the body uses, read at an index given by coordinates -/

section Layout
variable {α : Type}

/-- A `[1, a, 1]` array cast to `[a]` reads, at `i`, the operand at `(0, i, 0)`. -/
theorem shapeCast_1a1_a_apply {a : ℕ} (x : (⟨3, ![1, a, 1]⟩ : Shape).Idx → α)
    (h : (⟨3, ![1, a, 1]⟩ : Shape).ShapeCasts ⟨1, ![a]⟩) (i : Fin a) :
    shapeCast ⟨1, ![a]⟩ x h (ix1 i) = x (ix3 (0 : Fin 1) i (0 : Fin 1)) :=
  shapeCast_apply x h _ _ (by
    rw [Shape.rowMajor_val_three, Shape.rowMajor_val_one]
    show (0 * a + i.val) * 1 + 0 = i.val
    rw [Nat.zero_mul, Nat.zero_add, Nat.mul_one, Nat.add_zero])

/-- An `[a]` array cast to the column `[a, 1]` reads, at `(i, u)`, the operand at `i`, whatever the unit coordinate. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One entry of a mask -/

/-- The column counter: an iota along axis 1 of a matrix reads, at `(r, k)`, the word of `k`. -/
theorem iota_axis1_apply {a b : ℕ} (h : (⟨2, ![a, b]⟩ : Shape).Iotas .tc 32 [1]) (r : Fin a) (k : Fin b) :
    iota .tc (⟨2, ![a, b]⟩ : Shape) 32 [1] h (ix2 r k) = BitVec.ofNat 32 k.val := by
  show BitVec.ofNat 32 (0 * b + k.val) = _
  rw [Nat.zero_mul, Nat.zero_add]

/-- A word compared for equality with the word of a number below `2 ^ 32`: the comparison of the naturals. -/
theorem cmpi_eq_ofNat (w : BitVec 32) (k : ℕ) (hk : k < 2 ^ 32) :
    IntOp.cmpi .eq w (BitVec.ofNat 32 k) = if w.toNat = k then 1#1 else 0#1 := by
  show BitVec.ofBool (w == BitVec.ofNat 32 k) = _
  by_cases h : w.toNat = k
  · have e : w = BitVec.ofNat 32 k := by
      apply BitVec.eq_of_toNat_eq
      rw [BitVec.toNat_ofNat, Nat.mod_eq_of_lt hk, h]
    rw [if_pos h, e]
    simp
  · have e : ¬ w = BitVec.ofNat 32 k := fun e => h (by rw [e, BitVec.toNat_ofNat, Nat.mod_eq_of_lt hk])
    rw [if_neg h, beq_eq_false_iff_ne.mpr e]
    rfl

/-- The widened bit as an extended real: a set bit is one, a clear bit zero. -/
theorem sitofp_bit (p : Prop) [Decidable p] :
    (FloatOps.sitofp (F := Ideal) .f32 ((if p then 1#1 else 0#1 : BitVec 1).setWidth 32) : EReal)
      = if p then 1 else 0 := by
  show (((((if p then 1#1 else 0#1 : BitVec 1).setWidth 32).toInt : ℤ) : ℝ) : EReal) = _
  split
  · show ((((1 : ℤ)) : ℝ) : EReal) = 1
    rw [Int.cast_one, EReal.coe_one]
  · show ((((0 : ℤ)) : ℝ) : EReal) = 0
    rw [Int.cast_zero, EReal.coe_zero]

/-- ONE MASK ENTRY: a column of position words, laid along the rows and compared with the column counter, then widened
    to a float, is one at `(r, k)` when row `r`'s word is `k`, and zero otherwise. -/
theorem mask_apply (v : IVec (⟨3, ![1, 256, 1]⟩ : Shape) 32)
    (h1 : (⟨3, ![1, 256, 1]⟩ : Shape).ShapeCasts ⟨1, ![256]⟩) (h2 : (⟨1, ![256]⟩ : Shape).ShapeCasts ⟨2, ![256, 1]⟩)
    (h3 : (⟨2, ![256, 1]⟩ : Shape).Broadcasts ⟨2, ![256, 5120]⟩) (h4 : (⟨2, ![256, 5120]⟩ : Shape).Iotas .tc 32 [1])
    (h5 : 1 < 32) (r : Fin 256) (k : Fin 5120) :
    (sitofp .f32 (extui 32 (cmpi .eq (broadcastTo (⟨2, ![256, 5120]⟩ : Shape)
        (shapeCast (⟨2, ![256, 1]⟩ : Shape) (shapeCast (⟨1, ![256]⟩ : Shape) v h1) h2) h3)
        (iota .tc (⟨2, ![256, 5120]⟩ : Shape) 32 [1] h4)) h5) : FVec Ideal (⟨2, ![256, 5120]⟩ : Shape) .f32) (ix2 r k)
      = if (v (ix3 (0 : Fin 1) r (0 : Fin 1))).toNat = k.val then (1 : EReal) else 0 := by
  rw [sitofp_apply, extui_apply]
  show FloatOps.sitofp (F := Ideal) .f32 ((IntOp.cmpi .eq
      (broadcastTo (⟨2, ![256, 5120]⟩ : Shape)
        (shapeCast (⟨2, ![256, 1]⟩ : Shape) (shapeCast (⟨1, ![256]⟩ : Shape) v h1) h2) h3 (ix2 r k))
      (iota .tc (⟨2, ![256, 5120]⟩ : Shape) 32 [1] h4 (ix2 r k))).setWidth 32) = _
  rw [broadcastTo_a1_ab_apply, shapeCast_a_a1_apply, shapeCast_1a1_a_apply, iota_axis1_apply,
    cmpi_eq_ofNat _ _ (lt_trans k.isLt (by decide))]
  exact sitofp_bit _

/-! ## The product read at an index

The contraction has one axis, the 5120 columns of the left operand against the 5120 rows of the right: the operands'
indices at output index `(r, h)` and contraction position `k` are `(r, k)` and `(k, h)`. -/

theorem lhs_axis0 (j : S256x1024.Idx) (k : dot_S256x5120_S5120x1024_S256x1024_1_0_0_1_n_n.contr.Idx) :
    (dot_S256x5120_S5120x1024_S256x1024_1_0_0_1_n_n.lhsIdx j k 0).val = (j 0).val := by
  unfold DotDims.lhsIdx
  rw [dif_neg (show ¬(0 : Fin S256x5120.rank) ∈ dot_S256x5120_S5120x1024_S256x1024_1_0_0_1_n_n.lhsBatch by decide),
    dif_pos (show (0 : Fin S256x5120.rank) ∈ dot_S256x5120_S5120x1024_S256x1024_1_0_0_1_n_n.lhsNonContracting by decide)]
  rfl

theorem lhs_axis1 (j : S256x1024.Idx) (k : dot_S256x5120_S5120x1024_S256x1024_1_0_0_1_n_n.contr.Idx) :
    (dot_S256x5120_S5120x1024_S256x1024_1_0_0_1_n_n.lhsIdx j k 1).val = (k ⟨0, by decide⟩).val :=
  dot_S256x5120_S5120x1024_S256x1024_1_0_0_1_n_n.lhsIdx_val_of_single (cl := 1) rfl j k

theorem rhs_axis0 (j : S256x1024.Idx) (k : dot_S256x5120_S5120x1024_S256x1024_1_0_0_1_n_n.contr.Idx) :
    (dot_S256x5120_S5120x1024_S256x1024_1_0_0_1_n_n.rhsIdx j k 0).val = (k ⟨0, by decide⟩).val :=
  dot_S256x5120_S5120x1024_S256x1024_1_0_0_1_n_n.rhsIdx_val_of_single (cr := 0) rfl j k

theorem rhs_axis1 (j : S256x1024.Idx) (k : dot_S256x5120_S5120x1024_S256x1024_1_0_0_1_n_n.contr.Idx) :
    (dot_S256x5120_S5120x1024_S256x1024_1_0_0_1_n_n.rhsIdx j k 1).val = (j 1).val := by
  unfold DotDims.rhsIdx
  rw [dif_neg (show ¬(1 : Fin S5120x1024.rank) ∈ dot_S256x5120_S5120x1024_S256x1024_1_0_0_1_n_n.rhsBatch by decide),
    dif_pos (show (1 : Fin S5120x1024.rank) ∈ dot_S256x5120_S5120x1024_S256x1024_1_0_0_1_n_n.rhsNonContracting by decide)]
  rfl

/-- The product into the zero accumulator, at `(r, h)`: the sum over the 5120 contracted positions. -/
theorem matmul_apply_rows (A : FVec Ideal S256x5120 .f32) (B : FVec Ideal S5120x1024 .f32) (r : Fin 256) (h : Fin 1024) :
    matmul dot_S256x5120_S5120x1024_S256x1024_1_0_0_1_n_n none A B (constant (F := Ideal) S256x1024 .f32 0x00000000#32) (ix2 r h)
      = ∑ k : Fin 5120, A (ix2 r k) * B (ix2 k h) := by
  show FloatOps.matmul dot_S256x5120_S5120x1024_S256x1024_1_0_0_1_n_n none A B
      (constant (F := Ideal) S256x1024 .f32 0x00000000#32) (ix2 r h) = _
  rw [Ideal.matmul_constant_zero_apply,
    ← Equiv.sum_comp (contrEquiv1 dot_S256x5120_S5120x1024_S256x1024_1_0_0_1_n_n 5120 rfl rfl).symm]
  refine Finset.sum_congr rfl fun c _ => ?_
  have hc := contrEquiv1_symm_val dot_S256x5120_S5120x1024_S256x1024_1_0_0_1_n_n 5120 rfl rfl c
  have hl : dot_S256x5120_S5120x1024_S256x1024_1_0_0_1_n_n.lhsIdx (ix2 r h)
      ((contrEquiv1 dot_S256x5120_S5120x1024_S256x1024_1_0_0_1_n_n 5120 rfl rfl).symm c) = ix2 r c := by
    funext ax; apply Fin.ext
    match ax with
    | ⟨0, _⟩ => exact lhs_axis0 _ _
    | ⟨1, _⟩ => exact (lhs_axis1 _ _).trans hc
  have hr : dot_S256x5120_S5120x1024_S256x1024_1_0_0_1_n_n.rhsIdx (ix2 r h)
      ((contrEquiv1 dot_S256x5120_S5120x1024_S256x1024_1_0_0_1_n_n 5120 rfl rfl).symm c) = ix2 c h := by
    funext ax; apply Fin.ext
    match ax with
    | ⟨0, _⟩ => exact (rhs_axis0 _ _).trans hc
    | ⟨1, _⟩ => exact rhs_axis1 _ _
  rw [hl, hr]

/-! ## The payloads at an index -/

/-- THE SUMMED ROWS: entry `(r, h)` of the block plus the product is the block's entry plus the table's entries `h` of
    the two rows that row `r`'s position words name. -/
theorem pay2_apply (v3 v5 : Vec Ideal S1x256x1 .i32) (scr : Vec Ideal S5120x1024 .f32) (blk : Vec Ideal S256x1024 .f32)
    (r : Fin 256) (h : Fin 1024)
    (h3 : (v3 (ix3 (0 : Fin 1) r (0 : Fin 1))).toNat < 5120) (h5 : (v5 (ix3 (0 : Fin 1) r (0 : Fin 1))).toNat < 5120) :
    k0_pay2 v3 v5 scr blk (ix2 r h)
      = blk (ix2 r h) + (scr (ix2 ⟨(v3 (ix3 (0 : Fin 1) r (0 : Fin 1))).toNat, h3⟩ h)
          + scr (ix2 ⟨(v5 (ix3 (0 : Fin 1) r (0 : Fin 1))).toNat, h5⟩ h)) := by
  unfold k0_pay2
  show blk (ix2 r h) + matmul dot_S256x5120_S5120x1024_S256x1024_1_0_0_1_n_n none (addf _ _) scr
      (constant (F := Ideal) S256x1024 .f32 0x00000000#32) (ix2 r h) = _
  refine congrArg (blk (ix2 r h) + ·) ((matmul_apply_rows _ scr r h).trans ?_)
  refine Eq.trans (Finset.sum_congr rfl fun k _ => ?_)
    (sum_twoHot_mul (⟨_, h3⟩ : Fin 5120) (⟨_, h5⟩ : Fin 5120) fun k => scr (ix2 k h))
  rw [addf_apply, mask_apply, mask_apply]

/-- A row's sum: the lane reduction of a `[256, 1024]` matrix from zero reads, at `r`, the sum of row `r`. -/
theorem rowSum_apply (src : FVec Ideal S256x1024 .f32) (r : Fin 256) :
    multiReduction (F := Ideal) .add [1] S256 src 0x00000000#32 reduces_S256x1024_S256 (.inl rfl) rfl (ix1 r)
      = ∑ k : Fin 1024, src (ix2 r k) := by
  refine (Ideal.multiReduction_add_single src 0x00000000#32 reduces_S256x1024_S256 (.inl rfl) rfl (ix1 r)).trans ?_
  refine Finset.sum_congr rfl fun k _ => congrArg src ?_
  funext ax; apply Fin.ext
  match ax with
  | ⟨0, _⟩ => rfl
  | ⟨1, _⟩ => rfl

/-- THE MEAN: the column of row sums divided by the row length reads, at `(r, u)`, the mean of row `r`. -/
theorem pay3_apply (v3 v5 : Vec Ideal S1x256x1 .i32) (scr : Vec Ideal S5120x1024 .f32) (blk : Vec Ideal S256x1024 .f32)
    (r : Fin 256) (u : Fin 1) :
    k0_pay3 v3 v5 scr blk (ix2 r u) = Cert.RowNorm.mean fun h' => k0_pay2 v3 v5 scr blk (ix2 r h') := by
  unfold k0_pay3
  show Ideal.div (shapeCast S256x1 (multiReduction (F := Ideal) .add [1] S256 (k0_pay2 v3 v5 scr blk) 0x00000000#32
      reduces_S256x1024_S256 (.inl rfl) rfl) shapeCasts_S256_S256x1 (ix2 r u)) Cert.RowNorm.width = _
  rw [shapeCast_a_a1_apply, rowSum_apply]
  rfl

/-- THE DEVIATIONS: entry `(r, h)` less the mean of row `r`. -/
theorem pay5_apply (v3 v5 : Vec Ideal S1x256x1 .i32) (scr : Vec Ideal S5120x1024 .f32) (blk : Vec Ideal S256x1024 .f32)
    (r : Fin 256) (h : Fin 1024) :
    k0_pay5 v3 v5 scr blk (ix2 r h)
      = k0_pay2 v3 v5 scr blk (ix2 r h) - Cert.RowNorm.mean fun h' => k0_pay2 v3 v5 scr blk (ix2 r h') := by
  unfold k0_pay5
  show k0_pay2 v3 v5 scr blk (ix2 r h)
      - broadcastTo S256x1024 (k0_pay3 v3 v5 scr blk) broadcasts_S256x1_S256x1024 (ix2 r h) = _
  rw [broadcastTo_a1_ab_apply, pay3_apply]

/-- THE VARIANCE: the column of the rows' sums of squared deviations divided by the row length reads, at `(r, u)`, the
    variance of row `r` about its mean. -/
theorem pay4_apply (v3 v5 : Vec Ideal S1x256x1 .i32) (scr : Vec Ideal S5120x1024 .f32) (blk : Vec Ideal S256x1024 .f32)
    (r : Fin 256) (u : Fin 1) :
    k0_pay4 v3 v5 scr blk (ix2 r u) = Cert.RowNorm.var fun h' => k0_pay2 v3 v5 scr blk (ix2 r h') := by
  unfold k0_pay4
  show Ideal.div (shapeCast S256x1 (multiReduction (F := Ideal) .add [1] S256
      (mulf (subf (k0_pay2 v3 v5 scr blk) (broadcastTo S256x1024 (k0_pay3 v3 v5 scr blk) broadcasts_S256x1_S256x1024))
        (subf (k0_pay2 v3 v5 scr blk) (broadcastTo S256x1024 (k0_pay3 v3 v5 scr blk) broadcasts_S256x1_S256x1024)))
      0x00000000#32 reduces_S256x1024_S256 (.inl rfl) rfl) shapeCasts_S256_S256x1 (ix2 r u)) Cert.RowNorm.width = _
  rw [shapeCast_a_a1_apply, rowSum_apply]
  refine congrArg (Ideal.div · Cert.RowNorm.width) (Finset.sum_congr rfl fun k _ => ?_)
  rw [mulf_apply, subf_apply, broadcastTo_a1_ab_apply, pay3_apply]

/-- THE STORED VALUE over any column of variances `V` and matrix of deviations `X`: at `(0, r, h)` the deviation times
    the reciprocal square root of the variance plus the small constant, times the gain, plus the offset. -/
theorem pay1_apply (V : FVec Ideal S256x1 .f32) (X : FVec Ideal S256x1024 .f32) (c : Ideal .f32)
    (g b : Vec Ideal S1024 .f32) (r : Fin 256) (h : Fin 1024) :
    k0_pay1 V X c g b (ix3 (0 : Fin 1) r h)
      = X (ix2 r h) * Ideal.rsqrt (V (ix2 r (0 : Fin 1)) + c) * g (ix1 h) + b (ix1 h) := by
  unfold k0_pay1
  rw [shapeCast_ab_1ab_apply, addf_apply, mulf_apply, mulf_apply, broadcastTo_1b_ab_apply, broadcastTo_1b_ab_apply,
    shapeCast_a_1a_apply, shapeCast_a_1a_apply, broadcastTo_a1_ab_apply]
  rfl

/-- THE KERNEL'S PAYLOAD AT AN ENTRY: what the body stores at `(0, r, h)` is entry `h` of the normalised row whose
    entries are the block's row `r` plus the two table rows that row `r`'s position words name. -/
theorem payload_apply (v3 v5 : Vec Ideal S1x256x1 .i32) (scr : Vec Ideal S5120x1024 .f32) (blk : Vec Ideal S256x1024 .f32)
    (g b : Vec Ideal S1024 .f32) (r : Fin 256) (h : Fin 1024)
    (h3 : (v3 (ix3 (0 : Fin 1) r (0 : Fin 1))).toNat < 5120) (h5 : (v5 (ix3 (0 : Fin 1) r (0 : Fin 1))).toNat < 5120) :
    k0_pay1 (k0_pay4 v3 v5 scr blk) (k0_pay5 v3 v5 scr blk) (Scalar.ofBits .f32 0x2B8CBCCC#32) g b (ix3 (0 : Fin 1) r h)
      = Cert.RowNorm.norm
          (fun h' => blk (ix2 r h') + (scr (ix2 ⟨(v3 (ix3 (0 : Fin 1) r (0 : Fin 1))).toNat, h3⟩ h')
            + scr (ix2 ⟨(v5 (ix3 (0 : Fin 1) r (0 : Fin 1))).toNat, h5⟩ h')))
          (fun h' => g (ix1 h')) (fun h' => b (ix1 h')) h := by
  have hrow : (fun h' => k0_pay2 v3 v5 scr blk (ix2 r h'))
      = fun h' => blk (ix2 r h') + (scr (ix2 ⟨(v3 (ix3 (0 : Fin 1) r (0 : Fin 1))).toNat, h3⟩ h')
          + scr (ix2 ⟨(v5 (ix3 (0 : Fin 1) r (0 : Fin 1))).toNat, h5⟩ h')) :=
    funext fun h' => pay2_apply v3 v5 scr blk r h' h3 h5
  rw [pay1_apply, pay4_apply, pay5_apply, hrow, pay2_apply v3 v5 scr blk r h h3 h5]
  rfl

end Cert.KernelIdeal.Payload

end
-- ==== Proof.KernelFinal.lean ====
/-
  The kernel's result array, as one function of its argument arrays.

  The grid has 8 × 16 points; point (batch, block) reads the 256 pairs of position words of rows 256·block … 256·block+255
  of its batch, the gain, the offset, and from its own copy of the padded table the whole table and the 256 rows
  starting at 256·block; it writes the 256 × 1024 block of the result at the same (batch, block). Entry (r, h) of
  what it writes is the normalised sum of table row 256·block + r and the two rows the pair of words names. With every
  word below 5000 the padded rows are never read, the words name their own rows, and the entry is the specification's
  at (batch, 256·block + r, h). The 128 blocks tile the result array, so the array ends holding the specification.
-/
import proofs.«428590_j52295521796615_1_alg».proof.Defs
import proofs.«428590_j52295521796615_1_alg».proof.Proof.Gen.KernelIdeal.Value
import proofs.«428590_j52295521796615_1_alg».proof.Proof.Spec
import proofs.«428590_j52295521796615_1_alg».proof.Proof.KernelPieces
import proofs.«428590_j52295521796615_1_alg».proof.Proof.KernelHost
import proofs.«428590_j52295521796615_1_alg».proof.Proof.KernelPayload
import Idealize.ShloMosaic.Lib.Pipeline.Value
import Idealize.ShloMosaic.Lib.ValueIdx

set_option maxRecDepth 16384

noncomputable section

open Idealize.ShloMosaic Idealize.ShloMosaic.TcCoe Idealize.SL.Sem

/-! ## One stored entry is one entry of the specification -/

namespace Cert.KernelIdeal.Final

open Cert.KernelIdeal Cert.KernelIdeal.Gen Cert.KernelIdeal.Value Idealize.ShloMosaic.ValueIdx
open Idealize.ShloMosaic.Pipeline (Dat)

/-- The body's arithmetic at row `r`, column `h` of a block, when its four reads are known: the block of table rows
    reads table row `n`, the two position words are `w3` and `w5`, and the buffer's copy of the table agrees with the
    table on its first 5000 rows. The padded rows never enter: the words stay below 5000. -/
theorem entry_eq (v3 v5 : Vec Ideal S1x256x1 .i32) (scr : Vec Ideal S5120x1024 .f32) (blk : Vec Ideal S256x1024 .f32)
    (g b : Vec Ideal S1024 .f32) (r : Fin 256) (h : Fin 1024)
    (pe : (⟨2, ![5000, 1024]⟩ : Shape).Idx → EReal) (n w3 w5 : Fin 5000)
    (e3 : (v3 (ix3 (0 : Fin 1) r (0 : Fin 1))).toNat = w3.val) (e5 : (v5 (ix3 (0 : Fin 1) r (0 : Fin 1))).toNat = w5.val)
    (hblk : ∀ h' : Fin 1024, blk (ix2 r h') = pe (ix2 n h'))
    (hscr : ∀ (k : Fin 5120) (h' : Fin 1024) (hk : k.val < 5000), scr (ix2 k h') = pe (ix2 ⟨k.val, hk⟩ h')) :
    k0_pay1 (k0_pay4 v3 v5 scr blk) (k0_pay5 v3 v5 scr blk) (Scalar.ofBits .f32 0x2B8CBCCC#32) g b (ix3 (0 : Fin 1) r h)
      = Cert.RowNorm.norm (fun h' => pe (ix2 n h') + (pe (ix2 w3 h') + pe (ix2 w5 h')))
          (fun h' => g (ix1 h')) (fun h' => b (ix1 h')) h := by
  have h3 : (v3 (ix3 (0 : Fin 1) r (0 : Fin 1))).toNat < 5120 := by rw [e3]; have := w3.isLt; omega
  have h5 : (v5 (ix3 (0 : Fin 1) r (0 : Fin 1))).toNat < 5120 := by rw [e5]; have := w5.isLt; omega
  have k3 : (v3 (ix3 (0 : Fin 1) r (0 : Fin 1))).toNat < 5000 := by rw [e3]; exact w3.isLt
  have k5 : (v5 (ix3 (0 : Fin 1) r (0 : Fin 1))).toNat < 5000 := by rw [e5]; exact w5.isLt
  have a3 : (⟨(v3 (ix3 (0 : Fin 1) r (0 : Fin 1))).toNat, k3⟩ : Fin 5000) = w3 := Fin.ext e3
  have a5 : (⟨(v5 (ix3 (0 : Fin 1) r (0 : Fin 1))).toNat, k5⟩ : Fin 5000) = w5 := Fin.ext e5
  rw [Cert.KernelIdeal.Payload.payload_apply v3 v5 scr blk g b r h h3 h5]
  have erow : (fun h' : Fin 1024 => blk (ix2 r h') + (scr (ix2 ⟨(v3 (ix3 (0 : Fin 1) r (0 : Fin 1))).toNat, h3⟩ h') + scr (ix2 ⟨(v5 (ix3 (0 : Fin 1) r (0 : Fin 1))).toNat, h5⟩ h')))
      = fun h' => pe (ix2 n h') + (pe (ix2 w3 h') + pe (ix2 w5 h')) := by
    funext h'
    rw [hblk h', hscr ⟨_, h3⟩ h' k3, hscr ⟨_, h5⟩ h' k5, a3, a5]
  rw [erow]

variable (m : (ℓ : Loc nD τ sig) → Buf (Elt Ideal) ℓ) (ρ : Dev nD → PrngReg)

/-- THE RESULT ARRAY: the specification at the four argument arrays the program reads. -/
def result (c : Dev nD) : Buf (Elt Ideal) ((c : Thread nD τ).loc main_v1) :=
  Cert.RowNorm.G (m ((c : Thread nD τ).loc main_arg1)) (m ((c : Thread nD τ).loc main_arg2))
    (m ((c : Thread nD τ).loc main_arg3)) (m ((c : Thread nD τ).loc main_arg4))

/-- The printed index maps, decided over the 128 points: the position words' block and the output block sit at the
    same (batch, position-block) pair, the gain and offset are read whole, the rows the body reads from its buffer
    start at 256 times the position-block number, and the pair stays inside [0, 8) × [0, 16). -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 1) = 0 ∧ win0_2.index t (0 : Fin 1) = 0
    ∧ win0_3.index t (0 : Fin 3) < 8 ∧ win0_3.index t (1 : Fin 3) < 16
    ∧ k0_off1 (grid0.coords t) (0 : Fin 2) = 256 * win0_3.index t (1 : Fin 3) ∧ k0_off1 (grid0.coords t) (1 : Fin 2) = 0 :=
  (by decide +kernel : ∀ t : Fin grid0.N, _)

/-- Every (batch, position-block) pair is some point's. -/
theorem idx_onto : ∀ (q0 : Fin 8) (q1 : Fin 16), ∃ t : Fin cfg0.N, win0_3.index t = ![q0.val, q1.val, 0] :=
  (by decide +kernel : ∀ (q0 : Fin 8) (q1 : Fin 16), ∃ t : Fin grid0.N, win0_3.index t = ![q0.val, q1.val, 0])

/-! ## The blocks a point reads, entry by entry -/

/-- The position words' block at point `t`, at row `r` and column `k`, is the word at (batch, 256·block + r, k). -/
theorem words_read (c : Dev nD) (t : Fin cfg0.N) (r : Fin 256) (k : Fin 2)
    (hb : win0_3.index t (0 : Fin 3) < 8) (hn : win0_3.index t (1 : Fin 3) * 256 + r.val < 4096) :
    (iblk m c 0 t : Vec Ideal S1x256x2 .i32) (ix3 (0 : Fin 1) r k)
      = (m ((c : Thread nD τ).loc main_arg1) : S8x4096x2.Idx → BitVec 32)
          (ix3 (⟨win0_3.index t (0 : Fin 3), hb⟩ : Fin 8) (⟨win0_3.index t (1 : Fin 3) * 256 + r.val, hn⟩ : Fin 4096) k) := by
  obtain ⟨f0, f1, f2, f3, f4, f5, f6, f7, f8, f9⟩ := idx_facts t
  unfold iblk
  rw [View.read_apply]
  show V m c main_arg1 _ = _
  rw [V_main_arg1]
  refine congrArg (m ((c : Thread nD τ).loc main_arg1)) ?_
  funext a
  apply Fin.ext
  match a with
  | ⟨0, _⟩ => show win0_0.index t (0 : Fin 3) * 1 + 1 * 0 = win0_3.index t (0 : Fin 3); omega
  | ⟨1, _⟩ => show win0_0.index t (1 : Fin 3) * 256 + 1 * r.val = win0_3.index t (1 : Fin 3) * 256 + r.val; omega
  | ⟨2, _⟩ => show win0_0.index t (2 : Fin 3) * 2 + 1 * k.val = k.val; omega

/-- The gain's block is the gain, and the offset's block the offset, at every point. -/
theorem gain_read (c : Dev nD) (t : Fin cfg0.N) (h' : Fin 1024) :
    (iblk m c 1 t : Vec Ideal S1024 .f32) (ix1 h') = (m ((c : Thread nD τ).loc main_arg3) : S1024.Idx → EReal) (ix1 h') := by
  obtain ⟨f0, f1, f2, f3, f4, f5, f6, f7, f8, f9⟩ := idx_facts t
  unfold iblk
  rw [View.read_apply]
  show V m c main_arg3 _ = _
  rw [V_main_arg3]
  refine congrArg (m ((c : Thread nD τ).loc main_arg3)) ?_
  funext a
  apply Fin.ext
  match a with
  | ⟨0, _⟩ => show win0_1.index t (0 : Fin 1) * 1024 + 1 * h'.val = h'.val; omega

theorem offset_read (c : Dev nD) (t : Fin cfg0.N) (h' : Fin 1024) :
    (iblk m c 2 t : Vec Ideal S1024 .f32) (ix1 h') = (m ((c : Thread nD τ).loc main_arg4) : S1024.Idx → EReal) (ix1 h') := by
  obtain ⟨f0, f1, f2, f3, f4, f5, f6, f7, f8, f9⟩ := idx_facts t
  unfold iblk
  rw [View.read_apply]
  show V m c main_arg4 _ = _
  rw [V_main_arg4]
  refine congrArg (m ((c : Thread nD τ).loc main_arg4)) ?_
  funext a
  apply Fin.ext
  match a with
  | ⟨0, _⟩ => show win0_2.index t (0 : Fin 1) * 1024 + 1 * h'.val = h'.val; omega

/-! ## The body's four reads, entry by entry -/

/-- Column 0 and column 1 of a block of position words, as columns. -/
theorem col0_read (x0 : Vec Ideal S1x256x2 .i32) (r : Fin 256) :
    View.ld x0 (Rect.unit (s := S1x256x2) ![0, 0, 0] S1x256x1.size inb_S1x256x2_S1x256x1_0_0_0) (ix3 (0 : Fin 1) r (0 : Fin 1))
      = x0 (ix3 (0 : Fin 1) r (0 : Fin 2)) :=
  congrArg x0 (funext fun a => Fin.ext (by
    match a with
    | ⟨0, _⟩ => rfl
    | ⟨1, _⟩ => show 0 + 1 * r.val = r.val; omega
    | ⟨2, _⟩ => rfl))

theorem col1_read (x0 : Vec Ideal S1x256x2 .i32) (r : Fin 256) :
    View.ld x0 (Rect.unit (s := S1x256x2) ![0, 0, 1] S1x256x1.size inb_S1x256x2_S1x256x1_0_0_1) (ix3 (0 : Fin 1) r (0 : Fin 1))
      = x0 (ix3 (0 : Fin 1) r (1 : Fin 2)) :=
  congrArg x0 (funext fun a => Fin.ext (by
    match a with
    | ⟨0, _⟩ => rfl
    | ⟨1, _⟩ => show 0 + 1 * r.val = r.val; omega
    | ⟨2, _⟩ => rfl))

/-- The buffer's copy of the table agrees with the argument table on its first 5000 rows. -/
theorem table_read (c : Dev nD) (k : Fin 5120) (h' : Fin 1024) (hk : k.val < 5000) :
    (Pieces.table m c) (ix2 k h') = (m ((c : Thread nD τ).loc main_arg2) : S5000x1024.Idx → EReal) (ix2 ⟨k.val, hk⟩ h') := by
  show (V m c main_v0 : S5120x1024.Idx → EReal) (ix2 k h') = _
  rw [Cert.KernelIdeal.HostSide.table_apply, dif_pos hk]

/-- The 256 table rows a point reads from the buffer, starting at 256 times its position-block number, are rows of
    the argument table: 256·15 + 255 is still below 5000. -/
theorem rows_read (c : Dev nD) (t : Fin cfg0.N) (r : Fin 256) (h' : Fin 1024)
    (hn : win0_3.index t (1 : Fin 3) * 256 + r.val < 5000) :
    View.ld (Pieces.table m c) (Rect.unit (s := S5120x1024) (k0_off1 (grid0.coords t)) S256x1024.size (k0_off1_inb (grid0.coords t))) (ix2 r h')
      = (m ((c : Thread nD τ).loc main_arg2) : S5000x1024.Idx → EReal) (ix2 ⟨win0_3.index t (1 : Fin 3) * 256 + r.val, hn⟩ h') := by
  obtain ⟨f0, f1, f2, f3, f4, f5, f6, f7, f8, f9⟩ := idx_facts t
  have hk : win0_3.index t (1 : Fin 3) * 256 + r.val < 5120 := by omega
  have e : (Rect.unit (s := S5120x1024) (k0_off1 (grid0.coords t)) S256x1024.size (k0_off1_inb (grid0.coords t))).emb (ix2 r h')
      = ix2 (⟨win0_3.index t (1 : Fin 3) * 256 + r.val, hk⟩ : Fin 5120) h' :=
    funext fun a => Fin.ext (by
      match a with
      | ⟨0, _⟩ => show k0_off1 (grid0.coords t) (0 : Fin 2) + 1 * r.val = win0_3.index t (1 : Fin 3) * 256 + r.val; omega
      | ⟨1, _⟩ => show k0_off1 (grid0.coords t) (1 : Fin 2) + 1 * h'.val = h'.val; omega)
  show (Pieces.table m c) ((Rect.unit (s := S5120x1024) (k0_off1 (grid0.coords t)) S256x1024.size (k0_off1_inb (grid0.coords t))).emb (ix2 r h')) = _
  rw [e]
  exact table_read m c _ h' hn

/-! ## What a point writes back -/

/-- ONE ENTRY of the block a point stores is the specification's entry at (batch, 256·block + r, h), when every position
    word is below 5000. -/
theorem block_entry
    (hw : ∀ (c : Dev nD) (i : S8x4096x2.Idx), ((m ((c : Thread nD τ).loc main_arg1) : S8x4096x2.Idx → BitVec 32) i).toNat < 5000)
    (c : Dev nD) (t : Fin cfg0.N) (r : Fin 256) (h : Fin 1024)
    (hb : win0_3.index t (0 : Fin 3) < 8) (hn : win0_3.index t (1 : Fin 3) * 256 + r.val < 4096) :
    Pieces.blockOut (grid0.coords t) (iblk m c 0 t) (iblk m c 1 t) (iblk m c 2 t) (Pieces.table m c) (ix3 (0 : Fin 1) r h)
      = result m c (ix3 (⟨win0_3.index t (0 : Fin 3), hb⟩ : Fin 8) (⟨win0_3.index t (1 : Fin 3) * 256 + r.val, hn⟩ : Fin 4096) h) := by
  have hn' : win0_3.index t (1 : Fin 3) * 256 + r.val < 5000 := by omega
  unfold Pieces.blockOut
  refine (entry_eq
    (View.ld (iblk m c 0 t : Vec Ideal S1x256x2 .i32) (Rect.unit (s := S1x256x2) ![0, 0, 0] S1x256x1.size inb_S1x256x2_S1x256x1_0_0_0))
    (View.ld (iblk m c 0 t : Vec Ideal S1x256x2 .i32) (Rect.unit (s := S1x256x2) ![0, 0, 1] S1x256x1.size inb_S1x256x2_S1x256x1_0_0_1))
    (Pieces.table m c)
    (View.ld (Pieces.table m c) (Rect.unit (s := S5120x1024) (k0_off1 (grid0.coords t)) S256x1024.size (k0_off1_inb (grid0.coords t))))
    (iblk m c 1 t) (iblk m c 2 t) r h
    (m ((c : Thread nD τ).loc main_arg2))
    (⟨win0_3.index t (1 : Fin 3) * 256 + r.val, hn'⟩ : Fin 5000)
    (Cert.RowNorm.row ((m ((c : Thread nD τ).loc main_arg1) : S8x4096x2.Idx → BitVec 32)
      (ix3 (⟨win0_3.index t (0 : Fin 3), hb⟩ : Fin 8) (⟨win0_3.index t (1 : Fin 3) * 256 + r.val, hn⟩ : Fin 4096) (0 : Fin 2))))
    (Cert.RowNorm.row ((m ((c : Thread nD τ).loc main_arg1) : S8x4096x2.Idx → BitVec 32)
      (ix3 (⟨win0_3.index t (0 : Fin 3), hb⟩ : Fin 8) (⟨win0_3.index t (1 : Fin 3) * 256 + r.val, hn⟩ : Fin 4096) (1 : Fin 2))))
    ?e3 ?e5 ?hblk ?hscr).trans ?_
  case e3 =>
    rw [col0_read, words_read m c t r (0 : Fin 2) hb hn, Cert.RowNorm.row_of_lt _ (hw c _)]
  case e5 =>
    rw [col1_read, words_read m c t r (1 : Fin 2) hb hn, Cert.RowNorm.row_of_lt _ (hw c _)]
  case hblk => exact fun h' => rows_read m c t r h' hn'
  case hscr => exact fun k h' hk => table_read m c k h' hk
  have eg : (fun h' : Fin 1024 => (iblk m c 1 t : Vec Ideal S1024 .f32) (ix1 h'))
      = fun h' => (m ((c : Thread nD τ).loc main_arg3) : S1024.Idx → EReal) (ix1 h') := funext (gain_read m c t)
  have eb : (fun h' : Fin 1024 => (iblk m c 2 t : Vec Ideal S1024 .f32) (ix1 h'))
      = fun h' => (m ((c : Thread nD τ).loc main_arg4) : S1024.Idx → EReal) (ix1 h') := funext (offset_read m c t)
  rw [eg, eb]
  rfl

/-- WHAT POINT `t` WRITES BACK is block `t` of the result array. -/
theorem flushed_eq
    (hw : ∀ (c : Dev nD) (i : S8x4096x2.Idx), ((m ((c : Thread nD τ).loc main_arg1) : S8x4096x2.Idx → BitVec 32) i).toNat < 5000)
    (c : Dev nD) (t : Fin cfg0.N) :
    (dats m 0 c).flushed 3 t = ((cfg0.win 3).blk t).view.read (Elt Ideal) (result m c) := by
  rw [Value.flushed3, Pieces.out_eq]
  obtain ⟨f0, f1, f2, f3, f4, f5, f6, f7, f8, f9⟩ := idx_facts t
  funext j
  have hj0 : (j 0).val < 1 := (j 0).isLt
  have hj1 : (j 1).val < 256 := (j 1).isLt
  have hj2 : (j 2).val < 1024 := (j 2).isLt
  have hn : win0_3.index t (1 : Fin 3) * 256 + (j 1).val < 4096 := by omega
  have ej : (j : S1x256x1024.Idx) = ix3 (0 : Fin 1) (⟨(j 1).val, hj1⟩ : Fin 256) (⟨(j 2).val, hj2⟩ : Fin 1024) :=
    funext fun a => Fin.ext (by
      match a with
      | ⟨0, _⟩ => show (j 0).val = 0; omega
      | ⟨1, _⟩ => rfl
      | ⟨2, _⟩ => rfl)
  have eemb : ((cfg0.win 3).blk t).view.emb j
      = ix3 (⟨win0_3.index t (0 : Fin 3), f6⟩ : Fin 8) (⟨win0_3.index t (1 : Fin 3) * 256 + (j 1).val, hn⟩ : Fin 4096) (⟨(j 2).val, hj2⟩ : Fin 1024) :=
    funext fun a => Fin.ext (by
      match a with
      | ⟨0, _⟩ => show win0_3.index t (0 : Fin 3) * 1 + 1 * (j 0).val = win0_3.index t (0 : Fin 3); omega
      | ⟨1, _⟩ => show win0_3.index t (1 : Fin 3) * 256 + 1 * (j 1).val = win0_3.index t (1 : Fin 3) * 256 + (j 1).val; omega
      | ⟨2, _⟩ => show win0_3.index t (2 : Fin 3) * 1024 + 1 * (j 2).val = (j 2).val; omega)
  show Pieces.blockOut (grid0.coords t) (iblk m c 0 t) (iblk m c 1 t) (iblk m c 2 t) (Pieces.table m c) j
      = result m c (((cfg0.win 3).blk t).view.emb j)
  rw [eemb]
  exact (congrArg (Pieces.blockOut (grid0.coords t) (iblk m c 0 t) (iblk m c 1 t) (iblk m c 2 t) (Pieces.table m c)) ej).trans
    (block_entry m hw c t ⟨(j 1).val, hj1⟩ ⟨(j 2).val, hj2⟩ f6 hn)

/-! ## From blocks to the array -/

/-- An index of the array is in point `t`'s block iff each coordinate is in the block's range on its axis. -/
theorem mem_blk (t : Fin cfg0.N) (i : S8x4096x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v1).slice (win0_3.rect t)).set ↔ _
  rw [View.set_slice_whole, Rect.mem_set_unit]
  exact Iff.rfl

/-- Every index of the array lies in some point's block: batch `i 0`, position block `i 1 / 256`. -/
theorem cover (i : S8x4096x1024.Idx) : ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 1024 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- THE RESULT ARRAY after the run is the specification of the four argument arrays. -/
theorem final
    (hw : ∀ (c : Dev nD) (i : S8x4096x2.Idx), ((m ((c : Thread nD τ).loc main_arg1) : S8x4096x2.Idx → BitVec 32) i).toNat < 5000)
    (c : Dev nD) : (dats m 0 c).arrAt 3 cfg0.N = result m c :=
  (dats m 0 c).arrAt_eq_of_cover 3 (result m c) (fun t _ => flushed_eq m hw c t) cover

/-- The run, read: the result array at the specification, the arguments unchanged. -/
theorem run
    (hw : ∀ (c : Dev nD) (i : S8x4096x2.Idx), ((m ((c : Thread nD τ).loc main_arg1) : S8x4096x2.Idx → BitVec 32) i).toNat < 5000) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m hw c), (h c).2⟩) (Value.run_blocks m ρ)

end Cert.KernelIdeal.Final

end
-- ==== Proof.RefTerm.lean ====
/-
  The reference's result as ONE term of the four arrays it reads (the position words, the table, the gain, the
  offset): its host operations composed in order, the variance helper and the select it calls written out where
  they are called. The pieces are named after what they compute: the rows a column of position words names, the
  summed rows, a mean column, a variance column.
-/
import proofs.«428590_j52295521796615_1_alg».proof.ReferenceIdeal

noncomputable section

namespace Cert.ReferenceIdeal.Term

open Cert.ReferenceIdeal Idealize.ShloMosaic
open Cert.ReferenceIdeal.Facts₀ Cert.ReferenceIdeal.Facts

variable {F : FTy → Type} [FloatOps F] [Facts]

/-- The table rows named by an [8, 4096] array of position words: a negative word is raised by the table's
    length, the words become a column of start indices, and the gather reads one row per word. -/
def rows (pe : FVec F S5000x1024 .f32) (w : IVec S8x4096 32) : FVec F S8x4096x1024 .f32 :=
  Host.gather gather_S5000x1024_S8x4096x1_S8x4096x1024_2_0_n_n_0_2_11024 pe
    (broadcastInDim S8x4096x1 ![0, 1] bcast_S8x4096_S8x4096x1_0_1
      (select (cmpi .slt w (broadcastInDim S8x4096 ![] bcast_S_S8x4096 (constantI S_ 32 0#32)))
        (addi w (broadcastInDim S8x4096 ![] bcast_S_S8x4096 (constantI S_ 32 5000#32))) w))

/-- Column `k` (0 or 1) of the position words as an [8, 4096] array. -/
def col0 (sent : IVec S8x4096x2 32) : IVec S8x4096 32 :=
  shapeCast S8x4096 (extractStridedSlice S8x4096x1 ![0, 0, 0] sent slices_S8x4096x2_S8x4096x1_0_0_0) shapeCasts_S8x4096x1_S8x4096
def col1 (sent : IVec S8x4096x2 32) : IVec S8x4096 32 :=
  shapeCast S8x4096 (extractStridedSlice S8x4096x1 ![0, 0, 1] sent slices_S8x4096x2_S8x4096x1_0_0_1) shapeCasts_S8x4096x1_S8x4096

/-- The summed rows: the table's first 4096 rows laid over every batch, plus the two gathered rows. -/
def summed (sent : IVec S8x4096x2 32) (pe : FVec F S5000x1024 .f32) : FVec F S8x4096x1024 .f32 :=
  addf
    (broadcastInDim S8x4096x1024 ![0, 1, 2] bcast_S1x4096x1024_S8x4096x1024_0_1_2
      (broadcastInDim S1x4096x1024 ![1, 2] bcast_S4096x1024_S1x4096x1024_1_2
        (extractStridedSlice S4096x1024 ![0, 0] pe slices_S5000x1024_S4096x1024_0_0)))
    (addf (rows pe (col0 sent)) (rows pe (col1 sent)))

/-- The mean over the last axis, kept as a column. -/
def meanCol (e : FVec F S8x4096x1024 .f32) : FVec F S8x4096x1 .f32 :=
  Host.divf
    (broadcastInDim S8x4096x1 ![0, 1] bcast_S8x4096_S8x4096x1_0_1
      (Host.reduceAdd e (constant S_ .f32 0x00000000#32) reducesTo_S8x4096x1024_S8x4096_d2 h_S_))
    (broadcastInDim S8x4096x1 ![] bcast_S_S8x4096x1 (constant S_ .f32 0x44800000#32))

/-- The divisor the variance helper computes: the row length less the correction word `0`, as a float. -/
def divisor : FVec F S_ .f32 := subf (constant S_ .f32 0x44800000#32) (sitofp .f32 (constantI S_ 32 0#32))

/-- The variance over the last axis, kept as a column: the mean of the squared deviations, selected against a
    fill value where the divisor is not positive. -/
def varCol (e : FVec F S8x4096x1024 .f32) : FVec F S8x4096x1 .f32 :=
  select (broadcastInDim S8x4096x1 ![] bcast_S_S8x4096x1 (cmpf .ogt (divisor (F := F)) (constant S_ .f32 0x00000000#32)))
    (Host.divf
      (broadcastInDim S8x4096x1 ![0, 1] bcast_S8x4096_S8x4096x1_0_1
        (Host.reduceAdd
          (mulf (subf e (broadcastInDim S8x4096x1024 ![0, 1, 2] bcast_S8x4096x1_S8x4096x1024_0_1_2 (meanCol e)))
            (subf e (broadcastInDim S8x4096x1024 ![0, 1, 2] bcast_S8x4096x1_S8x4096x1024_0_1_2 (meanCol e))))
          (constant S_ .f32 0x00000000#32) reducesTo_S8x4096x1024_S8x4096_d2 h_S_))
      (broadcastInDim S8x4096x1 ![] bcast_S_S8x4096x1 (divisor (F := F))))
    (broadcastInDim S8x4096x1 ![] bcast_S_S8x4096x1 (id (constant S_ .f32 0x7FC00000#32)))

/-- A vector of 1024 entries laid along the last axis of an [8, 4096, 1024] array. -/
def alongLast (v : FVec F S1024 .f32) : FVec F S8x4096x1024 .f32 :=
  broadcastInDim S8x4096x1024 ![0, 1, 2] bcast_S1x1x1024_S8x4096x1024_0_1_2
    (broadcastInDim S1x1x1024 ![2] bcast_S1024_S1x1x1024_2 v)

/-- THE REFERENCE'S RESULT. -/
def result (sent : IVec S8x4096x2 32) (pe : FVec F S5000x1024 .f32) (gamma beta : FVec F S1024 .f32) :
    FVec F S8x4096x1024 .f32 :=
  addf
    (mulf
      (mulf
        (subf (summed sent pe)
          (broadcastInDim S8x4096x1024 ![0, 1, 2] bcast_S8x4096x1_S8x4096x1024_0_1_2 (meanCol (summed sent pe))))
        (broadcastInDim S8x4096x1024 ![0, 1, 2] bcast_S8x4096x1_S8x4096x1024_0_1_2
          (Host.rsqrt (addf (varCol (summed sent pe))
            (broadcastInDim S8x4096x1 ![] bcast_S_S8x4096x1 (constant S_ .f32 0x2B8CBCCC#32))))))
      (alongLast gamma))
    (alongLast beta)

end Cert.ReferenceIdeal.Term

end
-- ==== Proof.RefRun.lean ====
/-
  The reference program's run, with its two outlined helpers written out where they are called.

  @main is a straight line of tensor operations: the table's first 4096 rows, two columns of position words
  (each lifted by the table's length where negative, then used to pick one table row per word), the three
  summed, a mean over the last axis, a call of the variance helper, and the normalisation with gain and
  offset. The variance helper (twenty operations, then a call of a three-operation select helper) runs on
  buffers of its own, one per value; a call of it is its body over those buffers. So the whole program is
  ONE list of seventy-one operations, and what it leaves in the result buffer is the composition of their
  functions over the four arrays read, which is the term `Term.result`.
-/
import proofs.«428590_j52295521796615_1_alg».proof.Proof.Gen.ReferenceIdeal
import proofs.«428590_j52295521796615_1_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The seventy-one operations in program order: @main's first thirty-four (up to the correction word of the
    variance call), the variance helper's twenty over the call's own buffers with the summed rows and the
    correction word as its two arguments, the select helper's three over the nested call's buffers (its
    arguments the comparison, the quotient and the fill value of the variance helper), and @main's last
    fourteen. -/
abbrev ops : List (HloOp τ sig (Elt F)) :=
  [ -- the table's first 4096 rows, as one batch
    unary main_arg2 main_v0 ((extractStridedSlice S4096x1024 ![0, 0] · slices_S5000x1024_S4096x1024_0_0) : (⟨S5000x1024, .f32⟩ : BufTy).Contents (Elt F) → (⟨S4096x1024, .f32⟩ : BufTy).Contents (Elt F)),
    unary main_v0 main_v1 (broadcastInDim S1x4096x1024 ![1, 2] bcast_S4096x1024_S1x4096x1024_1_2 : (⟨S4096x1024, .f32⟩ : BufTy).Contents (Elt F) → (⟨S1x4096x1024, .f32⟩ : BufTy).Contents (Elt F)),
    -- the two columns of position words
    unary main_arg1 main_v2 ((extractStridedSlice S8x4096x1 ![0, 0, 0] · slices_S8x4096x2_S8x4096x1_0_0_0) : (⟨S8x4096x2, .i32⟩ : BufTy).Contents (Elt F) → (⟨S8x4096x1, .i32⟩ : BufTy).Contents (Elt F)),
    reshape main_v2 main_v3 rfl shapeCasts_S8x4096x1_S8x4096,
    unary main_arg1 main_v4 ((extractStridedSlice S8x4096x1 ![0, 0, 1] · slices_S8x4096x2_S8x4096x1_0_0_1) : (⟨S8x4096x2, .i32⟩ : BufTy).Contents (Elt F) → (⟨S8x4096x1, .i32⟩ : BufTy).Contents (Elt F)),
    reshape main_v4 main_v5 rfl shapeCasts_S8x4096x1_S8x4096,
    -- column 0: negative words lifted, one table row per word
    nullary main_c (constantI S_ 32 0#32),
    unary main_c main_v6 (broadcastInDim S8x4096 ![] bcast_S_S8x4096 : (⟨S_, .i32⟩ : BufTy).Contents (Elt F) → (⟨S8x4096, .i32⟩ : BufTy).Contents (Elt F)),
    binary main_v3 main_v6 main_v7 (cmpi .slt : (⟨S8x4096, .i32⟩ : BufTy).Contents (Elt F) → (⟨S8x4096, .i32⟩ : BufTy).Contents (Elt F) → (⟨S8x4096, .i1⟩ : BufTy).Contents (Elt F)),
    nullary main_c_0 (constantI S_ 32 5000#32),
    unary main_c_0 main_v8 (broadcastInDim S8x4096 ![] bcast_S_S8x4096 : (⟨S_, .i32⟩ : BufTy).Contents (Elt F) → (⟨S8x4096, .i32⟩ : BufTy).Contents (Elt F)),
    binary main_v3 main_v8 main_v9 (addi : (⟨S8x4096, .i32⟩ : BufTy).Contents (Elt F) → (⟨S8x4096, .i32⟩ : BufTy).Contents (Elt F) → (⟨S8x4096, .i32⟩ : BufTy).Contents (Elt F)),
    ternary main_v7 main_v9 main_v3 main_v10 (select : (⟨S8x4096, .i1⟩ : BufTy).Contents (Elt F) → (⟨S8x4096, .i32⟩ : BufTy).Contents (Elt F) → (⟨S8x4096, .i32⟩ : BufTy).Contents (Elt F) → (⟨S8x4096, .i32⟩ : BufTy).Contents (Elt F)),
    unary main_v10 main_v11 (broadcastInDim S8x4096x1 ![0, 1] bcast_S8x4096_S8x4096x1_0_1 : (⟨S8x4096, .i32⟩ : BufTy).Contents (Elt F) → (⟨S8x4096x1, .i32⟩ : BufTy).Contents (Elt F)),
    binary main_arg2 main_v11 main_v12 ((fun x i => Host.gather gather_S5000x1024_S8x4096x1_S8x4096x1024_2_0_n_n_0_2_11024 x i) : (⟨S5000x1024, .f32⟩ : BufTy).Contents (Elt F) → (⟨S8x4096x1, .i32⟩ : BufTy).Contents (Elt F) → (⟨S8x4096x1024, .f32⟩ : BufTy).Contents (Elt F)),
    -- column 1 likewise
    nullary main_c_1 (constantI S_ 32 0#32),
    unary main_c_1 main_v13 (broadcastInDim S8x4096 ![] bcast_S_S8x4096 : (⟨S_, .i32⟩ : BufTy).Contents (Elt F) → (⟨S8x4096, .i32⟩ : BufTy).Contents (Elt F)),
    binary main_v5 main_v13 main_v14 (cmpi .slt : (⟨S8x4096, .i32⟩ : BufTy).Contents (Elt F) → (⟨S8x4096, .i32⟩ : BufTy).Contents (Elt F) → (⟨S8x4096, .i1⟩ : BufTy).Contents (Elt F)),
    nullary main_c_2 (constantI S_ 32 5000#32),
    unary main_c_2 main_v15 (broadcastInDim S8x4096 ![] bcast_S_S8x4096 : (⟨S_, .i32⟩ : BufTy).Contents (Elt F) → (⟨S8x4096, .i32⟩ : BufTy).Contents (Elt F)),
    binary main_v5 main_v15 main_v16 (addi : (⟨S8x4096, .i32⟩ : BufTy).Contents (Elt F) → (⟨S8x4096, .i32⟩ : BufTy).Contents (Elt F) → (⟨S8x4096, .i32⟩ : BufTy).Contents (Elt F)),
    ternary main_v14 main_v16 main_v5 main_v17 (select : (⟨S8x4096, .i1⟩ : BufTy).Contents (Elt F) → (⟨S8x4096, .i32⟩ : BufTy).Contents (Elt F) → (⟨S8x4096, .i32⟩ : BufTy).Contents (Elt F) → (⟨S8x4096, .i32⟩ : BufTy).Contents (Elt F)),
    unary main_v17 main_v18 (broadcastInDim S8x4096x1 ![0, 1] bcast_S8x4096_S8x4096x1_0_1 : (⟨S8x4096, .i32⟩ : BufTy).Contents (Elt F) → (⟨S8x4096x1, .i32⟩ : BufTy).Contents (Elt F)),
    binary main_arg2 main_v18 main_v19 ((fun x i => Host.gather gather_S5000x1024_S8x4096x1_S8x4096x1024_2_0_n_n_0_2_11024 x i) : (⟨S5000x1024, .f32⟩ : BufTy).Contents (Elt F) → (⟨S8x4096x1, .i32⟩ : BufTy).Contents (Elt F) → (⟨S8x4096x1024, .f32⟩ : BufTy).Contents (Elt F)),
    -- the three summed
    binary main_v12 main_v19 main_v20 (addf : (⟨S8x4096x1024, .f32⟩ : BufTy).Contents (Elt F) → (⟨S8x4096x1024, .f32⟩ : BufTy).Contents (Elt F) → (⟨S8x4096x1024, .f32⟩ : BufTy).Contents (Elt F)),
    unary main_v1 main_v21 (broadcastInDim S8x4096x1024 ![0, 1, 2] bcast_S1x4096x1024_S8x4096x1024_0_1_2 : (⟨S1x4096x1024, .f32⟩ : BufTy).Contents (Elt F) → (⟨S8x4096x1024, .f32⟩ : BufTy).Contents (Elt F)),
    binary main_v21 main_v20 main_v22 (addf : (⟨S8x4096x1024, .f32⟩ : BufTy).Contents (Elt F) → (⟨S8x4096x1024, .f32⟩ : BufTy).Contents (Elt F) → (⟨S8x4096x1024, .f32⟩ : BufTy).Contents (Elt F)),
    -- the mean over the last axis
    nullary main_cst (constant S_ .f32 0x00000000#32),
    binary main_v22 main_cst main_v23 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v23 main_v24 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_3 (constant S_ .f32 0x44800000#32),
    unary main_cst_3 main_v25 (broadcastInDim S8x4096x1 ![] bcast_S_S8x4096x1 : (⟨S_, .f32⟩ : BufTy).Contents (Elt F) → (⟨S8x4096x1, .f32⟩ : BufTy).Contents (Elt F)),
    binary main_v24 main_v25 main_v26 (Host.divf : (⟨S8x4096x1, .f32⟩ : BufTy).Contents (Elt F) → (⟨S8x4096x1, .f32⟩ : BufTy).Contents (Elt F) → (⟨S8x4096x1, .f32⟩ : BufTy).Contents (Elt F)),
    -- the variance helper, called on the summed rows and the correction word 0
    nullary main_c_4 (constantI S_ 32 0#32),
    TRef.nullary main_call0.cst (constant S_ .f32 0x00000000#32),
    TRef.binary (.of main_v22 : TRef sig ⟨S8x4096x1024, .f32⟩) main_call0.cst main_call0.v0 (fun x v => Host.reduceAdd x v reducesTo_S8x4096x1024_S8x4096_d2 h_S_),
    TRef.unary main_call0.v0 main_call0.v1 (broadcastInDim S8x4096x1 ![0, 1] bcast_S8x4096_S8x4096x1_0_1),
    TRef.nullary main_call0.cst_0 (constant S_ .f32 0x44800000#32),
    TRef.unary main_call0.cst_0 main_call0.v2 (broadcastInDim S8x4096x1 ![] bcast_S_S8x4096x1),
    TRef.binary main_call0.v1 main_call0.v2 main_call0.v3 Host.divf,
    TRef.unary main_call0.v3 main_call0.v4 (broadcastInDim S8x4096x1024 ![0, 1, 2] bcast_S8x4096x1_S8x4096x1024_0_1_2),
    TRef.binary (.of main_v22 : TRef sig ⟨S8x4096x1024, .f32⟩) main_call0.v4 main_call0.v5 subf,
    TRef.binary main_call0.v5 main_call0.v5 main_call0.v6 mulf,
    TRef.unary (.of main_c_4 : TRef sig ⟨S_, .i32⟩) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x4096x1024_S8x4096_d2 h_S_),
    TRef.unary main_call0.v9 main_call0.v10 (broadcastInDim S8x4096x1 ![0, 1] bcast_S8x4096_S8x4096x1_0_1),
    TRef.unary main_call0.v8 main_call0.v11 (broadcastInDim S8x4096x1 ![] bcast_S_S8x4096x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    -- the select helper inside it: the fill value laid over the column, chosen where the divisor is not positive
    TRef.unary main_call0.cst_4 main_call0.call0.v0 id,
    TRef.unary main_call0.call0.v0 main_call0.call0.v1 (broadcastInDim S8x4096x1 ![] bcast_S_S8x4096x1),
    TRef.ternary main_call0.v13 main_call0.v12 main_call0.call0.v1 main_call0.call0.v2 (fun p a b => select (broadcastInDim S8x4096x1 ![] bcast_S_S8x4096x1 p) a b),
    -- centre, scale by the inverse root of the variance plus a small constant
    unary main_v26 main_v28 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v22 main_v28 main_v29 (subf : (⟨S8x4096x1024, .f32⟩ : BufTy).Contents (Elt F) → (⟨S8x4096x1024, .f32⟩ : BufTy).Contents (Elt F) → (⟨S8x4096x1024, .f32⟩ : BufTy).Contents (Elt F)),
    nullary main_cst_5 (constant S_ .f32 0x2B8CBCCC#32),
    unary main_cst_5 main_v30 (broadcastInDim S8x4096x1 ![] bcast_S_S8x4096x1 : (⟨S_, .f32⟩ : BufTy).Contents (Elt F) → (⟨S8x4096x1, .f32⟩ : BufTy).Contents (Elt F)),
    binary main_v27 main_v30 main_v31 (addf : (⟨S8x4096x1, .f32⟩ : BufTy).Contents (Elt F) → (⟨S8x4096x1, .f32⟩ : BufTy).Contents (Elt F) → (⟨S8x4096x1, .f32⟩ : BufTy).Contents (Elt F)),
    unary main_v31 main_v32 (Host.rsqrt : (⟨S8x4096x1, .f32⟩ : BufTy).Contents (Elt F) → (⟨S8x4096x1, .f32⟩ : BufTy).Contents (Elt F)),
    unary main_v32 main_v33 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v29 main_v33 main_v34 (mulf : (⟨S8x4096x1024, .f32⟩ : BufTy).Contents (Elt F) → (⟨S8x4096x1024, .f32⟩ : BufTy).Contents (Elt F) → (⟨S8x4096x1024, .f32⟩ : BufTy).Contents (Elt F)),
    -- gain and offset along the last axis
    unary main_arg3 main_v35 (broadcastInDim S1x1x1024 ![2] bcast_S1024_S1x1x1024_2 : (⟨S1024, .f32⟩ : BufTy).Contents (Elt F) → (⟨S1x1x1024, .f32⟩ : BufTy).Contents (Elt F)),
    unary main_v35 main_v36 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v34 main_v36 main_v37 (mulf : (⟨S8x4096x1024, .f32⟩ : BufTy).Contents (Elt F) → (⟨S8x4096x1024, .f32⟩ : BufTy).Contents (Elt F) → (⟨S8x4096x1024, .f32⟩ : BufTy).Contents (Elt F)),
    unary main_arg4 main_v38 (broadcastInDim S1x1x1024 ![2] bcast_S1024_S1x1x1024_2 : (⟨S1024, .f32⟩ : BufTy).Contents (Elt F) → (⟨S1x1x1024, .f32⟩ : BufTy).Contents (Elt F)),
    unary main_v38 main_v39 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v37 main_v39 main_v40 (addf : (⟨S8x4096x1024, .f32⟩ : BufTy).Contents (Elt F) → (⟨S8x4096x1024, .f32⟩ : BufTy).Contents (Elt F) → (⟨S8x4096x1024, .f32⟩ : BufTy).Contents (Elt F)) ]

-- seventy-one steps deep on either side
set_option maxRecDepth 8192 in
/-- @main is that straight line, by computation: a helper's call is its body over the call's buffers, the call
    records open at their fields, and sequencing a finished helper with what follows it is running the rest, so
    both sides are the same chain of seventy-one steps ending in the return. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., unary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    binary_bufs_sub .., unary_bufs_sub .., binary_bufs_sub ..,
    nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub ..,
    unary_bufs_sub .., unary_bufs_sub .., binary_bufs_sub .., unary_bufs_sub .., unary_bufs_sub .., binary_bufs_sub ..⟩

attribute [local irreducible] Host.reduceAdd Host.gather in
set_option maxRecDepth 8192 in
set_option maxHeartbeats 1000000 in
/-- What the result buffer holds after the seventy-one operations, from any contents `V`: each operation's value
    is read at its own result buffer and any other buffer is left as it was, so the fold at the last sum's buffer is
    the operations' functions composed back to the four arrays read. That composition is `Term.result` once its
    named pieces are opened: a reshape's value is the reshaped operand, and a helper's values pass through its
    buffers unchanged. The row sums and the row gathers are kept closed meanwhile: the equation never looks
    inside them. -/
theorem out_eq (V : Valuation τ sig (Elt F)) :
    after ops V (main_v40 : DevRef τ sig)
      = Term.result (V (main_arg1 : DevRef τ sig)) (V (main_arg2 : DevRef τ sig)) (V (main_arg3 : DevRef τ sig))
          (V (main_arg4 : DevRef τ sig)) := by
  after_results_simp
  rfl

/-- No operation writes an argument's buffer: each keeps its contents. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

/-- On the one device, for any float values, from any memory with zero counters: every weakly fair execution of
    @main terminates with the result buffer at `Term.result` of the position words, the table, the gain and the
    offset as they were at launch, and the five arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = Term.result (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v40).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.HandRun

end
-- ==== Proof.RefValue.lean ====
/-
  The reference's result, read entry by entry over the extended reals, is the specification.

  Every host operation of the reference is pointwise, a re-indexing, a sum along the last axis, or a row lookup.
  Pushing an index (b, n, h) through them: a broadcast forgets the coordinates it adds, a slice shifts one, the
  lookup reads the table row its start word names (a negative word raised by the table's length, then kept inside
  the table), and a sum along the last axis is a sum over the 1024 entries of a row. What is left at (b, n, h) is
  the normalised summed row of the specification, term for term.
-/
import proofs.«428590_j52295521796615_1_alg».proof.Proof.Gen.ReferenceIdeal
import proofs.«428590_j52295521796615_1_alg».proof.Proof.RefTerm
import proofs.«428590_j52295521796615_1_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-! ## Broadcasts read at an index -/

section Layout
variable {α : Type}

/-- An [8, 4096] array kept as an [8, 4096, 1] column reads, at (b, n, 0), the array at (b, n). -/
theorem column_apply (x : S8x4096.Idx → α) (b : Fin 8) (n : Fin 4096) (u : Fin 1) :
    broadcastInDim S8x4096x1 ![0, 1] Facts₀.bcast_S8x4096_S8x4096x1_0_1 x (ix3 b n u) = x (ix2 b n) :=
  broadcastInDim_apply _ _ x (ix3 b n u) (ix2 b n) fun a => by
    match a with
    | ⟨0, _⟩ => rfl
    | ⟨1, _⟩ => rfl

/-- An [8, 4096, 1] column laid along the last axis reads, at (b, n, h), the column at (b, n, 0). -/
theorem alongRow_apply (x : S8x4096x1.Idx → α) (b : Fin 8) (n : Fin 4096) (h : Fin 1024) :
    broadcastInDim S8x4096x1024 ![0, 1, 2] Facts₀.bcast_S8x4096x1_S8x4096x1024_0_1_2 x (ix3 b n h) = x (ix3 b n (0 : Fin 1)) :=
  broadcastInDim_apply _ _ x (ix3 b n h) (ix3 b n (0 : Fin 1)) fun a => by
    match a with
    | ⟨0, _⟩ => rfl
    | ⟨1, _⟩ => rfl
    | ⟨2, _⟩ => rfl

/-- A [4096, 1024] array laid over every batch reads, at (b, n, h), the array at (n, h). -/
theorem overBatch_apply (x : S4096x1024.Idx → α) (b : Fin 8) (n : Fin 4096) (h : Fin 1024) :
    broadcastInDim S8x4096x1024 ![0, 1, 2] Facts₀.bcast_S1x4096x1024_S8x4096x1024_0_1_2
      (broadcastInDim S1x4096x1024 ![1, 2] Facts₀.bcast_S4096x1024_S1x4096x1024_1_2 x) (ix3 b n h) = x (ix2 n h) := by
  refine (broadcastInDim_apply _ _ _ (ix3 b n h) (ix3 (0 : Fin 1) n h) fun a => ?_).trans
    (broadcastInDim_apply _ _ x (ix3 (0 : Fin 1) n h) (ix2 n h) fun a => ?_)
  · match a with
    | ⟨0, _⟩ => rfl
    | ⟨1, _⟩ => rfl
    | ⟨2, _⟩ => rfl
  · match a with
    | ⟨0, _⟩ => rfl
    | ⟨1, _⟩ => rfl

/-- A vector of 1024 entries laid along the last axis reads, at (b, n, h), the vector at h. -/
theorem lastAxis_apply (x : S1024.Idx → α) (b : Fin 8) (n : Fin 4096) (h : Fin 1024) :
    broadcastInDim S8x4096x1024 ![0, 1, 2] Facts₀.bcast_S1x1x1024_S8x4096x1024_0_1_2
      (broadcastInDim S1x1x1024 ![2] Facts₀.bcast_S1024_S1x1x1024_2 x) (ix3 b n h) = x (ix1 h) := by
  refine (broadcastInDim_apply _ _ _ (ix3 b n h) (ix3 (0 : Fin 1) (0 : Fin 1) h) fun a => ?_).trans
    (broadcastInDim_apply _ _ x (ix3 (0 : Fin 1) (0 : Fin 1) h) (ix1 h) fun a => ?_)
  · match a with
    | ⟨0, _⟩ => rfl
    | ⟨1, _⟩ => rfl
    | ⟨2, _⟩ => rfl
  · match a with
    | ⟨0, _⟩ => rfl

end Layout

/-! ## The row lookup read at an index -/

section Lookup
variable {α : Type}

/-- On the table's row axis the lookup reads the start word at (b, n, 0), signed and kept inside the table. -/
theorem lookup_row (idx : IVec S8x4096x1 32) (b : Fin 8) (n : Fin 4096) (h : Fin 1024) :
    gather_S5000x1024_S8x4096x1_S8x4096x1024_2_0_n_n_0_2_11024.start (ix3 b n h) idx 0 + gather_S5000x1024_S8x4096x1_S8x4096x1024_2_0_n_n_0_2_11024.batchCoord (ix3 b n h) 0 + gather_S5000x1024_S8x4096x1_S8x4096x1024_2_0_n_n_0_2_11024.offCoord (ix3 b n h) 0
      = min (idx (ix3 b n (0 : Fin 1))).toInt.toNat 4999 := by
  rw [GatherDims.batchCoord_eq_zero _ _ _ List.not_mem_nil,
    GatherDims.offCoord_eq_zero _ _ _ (fun hk => ((GatherDims.mem_sKept _ _).mp hk).1 (List.mem_singleton.mpr rfl))]
  simp only [Nat.add_zero]
  unfold GatherDims.start
  rw [dif_pos (show (0 : Fin S5000x1024.rank) ∈ gather_S5000x1024_S8x4096x1_S8x4096x1024_2_0_n_n_0_2_11024.startIndexMap from List.mem_singleton.mpr rfl)]
  have hsi : gather_S5000x1024_S8x4096x1_S8x4096x1024_2_0_n_n_0_2_11024.siIdx (ix3 b n h) ⟨List.idxOf (0 : Fin S5000x1024.rank) gather_S5000x1024_S8x4096x1_S8x4096x1024_2_0_n_n_0_2_11024.startIndexMap,
      List.idxOf_lt_length_iff.2 (List.mem_singleton.mpr rfl)⟩ = ix3 b n (0 : Fin 1) := by
    funext c; refine Fin.ext ?_
    match c with
    | ⟨0, _⟩ => rfl
    | ⟨1, _⟩ => rfl
    | ⟨2, _⟩ => rfl
  rw [hsi]
  rfl

/-- On the table's entry axis the lookup reads the result's own last coordinate. -/
theorem lookup_entry (idx : IVec S8x4096x1 32) (b : Fin 8) (n : Fin 4096) (h : Fin 1024) :
    gather_S5000x1024_S8x4096x1_S8x4096x1024_2_0_n_n_0_2_11024.start (ix3 b n h) idx 1 + gather_S5000x1024_S8x4096x1_S8x4096x1024_2_0_n_n_0_2_11024.batchCoord (ix3 b n h) 1 + gather_S5000x1024_S8x4096x1_S8x4096x1024_2_0_n_n_0_2_11024.offCoord (ix3 b n h) 1 = h.val := by
  rw [GatherDims.batchCoord_eq_zero _ _ _ List.not_mem_nil]
  unfold GatherDims.start
  rw [dif_neg (show ¬ (1 : Fin S5000x1024.rank) ∈ gather_S5000x1024_S8x4096x1_S8x4096x1024_2_0_n_n_0_2_11024.startIndexMap by decide)]
  unfold GatherDims.offCoord
  rw [dif_pos (show (1 : Fin S5000x1024.rank) ∈ gather_S5000x1024_S8x4096x1_S8x4096x1024_2_0_n_n_0_2_11024.sKept by decide)]
  simp only [Nat.zero_add]
  rfl

/-- THE LOOKUP READ AT (b, n, h): entry h of the table row named by the start word at (b, n, 0). -/
theorem lookup_apply (x : S5000x1024.Idx → α) (idx : IVec S8x4096x1 32) (b : Fin 8) (n : Fin 4096) (h : Fin 1024) :
    Host.gather gather_S5000x1024_S8x4096x1_S8x4096x1024_2_0_n_n_0_2_11024 x idx (ix3 b n h)
      = x (ix2 (⟨min (idx (ix3 b n (0 : Fin 1))).toInt.toNat 4999, Nat.lt_succ_of_le (Nat.min_le_right _ _)⟩ : Fin 5000) h) := by
  unfold Host.gather
  congr 1
  funext a
  refine Fin.ext ?_
  match a with
  | ⟨0, _⟩ => exact lookup_row idx b n h
  | ⟨1, _⟩ => exact lookup_entry idx b n h

end Lookup

/-! ## The pieces of the reference read at an index -/

/-- The rows a column of position words names: at (b, n, h), entry h of the table row the word at (b, n) names. -/
theorem rows_apply (pe : FVec Ideal S5000x1024 .f32) (w : IVec S8x4096 32) (b : Fin 8) (n : Fin 4096) (h : Fin 1024) :
    Term.rows (F := Ideal) pe w (ix3 b n h) = pe (ix2 (Cert.RowNorm.row (w (ix2 b n))) h) := by
  unfold Term.rows
  rw [lookup_apply, column_apply]
  rfl

/-- Column 0 of the position words reads, at (b, n), the word at (b, n, 0). -/
theorem col0_apply (sent : IVec S8x4096x2 32) (b : Fin 8) (n : Fin 4096) :
    Term.col0 sent (ix2 b n) = sent (ix3 b n (0 : Fin 2)) := by
  unfold Term.col0
  refine (shapeCast_apply _ _ (ix2 b n) (ix3 b n (0 : Fin 1)) ?_).trans
    (extractStridedSlice_apply _ sent _ (ix3 b n (0 : Fin 1)) (ix3 b n (0 : Fin 2)) fun a => ?_)
  · rw [Shape.rowMajor_val_three, Shape.rowMajor_val_two]
    show (b.val * 4096 + n.val) * 1 + 0 = b.val * 4096 + n.val
    omega
  · match a with
    | ⟨0, _⟩ => exact (Nat.zero_add _).symm
    | ⟨1, _⟩ => exact (Nat.zero_add _).symm
    | ⟨2, _⟩ => rfl

/-- Column 1 of the position words reads, at (b, n), the word at (b, n, 1). -/
theorem col1_apply (sent : IVec S8x4096x2 32) (b : Fin 8) (n : Fin 4096) :
    Term.col1 sent (ix2 b n) = sent (ix3 b n (1 : Fin 2)) := by
  unfold Term.col1
  refine (shapeCast_apply _ _ (ix2 b n) (ix3 b n (0 : Fin 1)) ?_).trans
    (extractStridedSlice_apply _ sent _ (ix3 b n (0 : Fin 1)) (ix3 b n (1 : Fin 2)) fun a => ?_)
  · rw [Shape.rowMajor_val_three, Shape.rowMajor_val_two]
    show (b.val * 4096 + n.val) * 1 + 0 = b.val * 4096 + n.val
    omega
  · match a with
    | ⟨0, _⟩ => exact (Nat.zero_add _).symm
    | ⟨1, _⟩ => exact (Nat.zero_add _).symm
    | ⟨2, _⟩ => rfl

/-- The table's first 4096 rows read, at (n, h), the table at (n, h). -/
theorem firstRows_apply {α : Type} (pe : S5000x1024.Idx → α) (n : Fin 4096) (h : Fin 1024) :
    extractStridedSlice S4096x1024 ![0, 0] pe Facts₀.slices_S5000x1024_S4096x1024_0_0 (ix2 n h)
      = pe (ix2 (⟨n.val, lt_trans n.isLt (by decide)⟩ : Fin 5000) h) :=
  extractStridedSlice_apply _ pe _ (ix2 n h) _ fun a => by
    match a with
    | ⟨0, _⟩ => exact (Nat.zero_add _).symm
    | ⟨1, _⟩ => exact (Nat.zero_add _).symm

/-- THE SUMMED ROWS: at (b, n, h), entry h of the specification's summed row at (b, n). -/
theorem summed_apply (sent : IVec S8x4096x2 32) (pe : FVec Ideal S5000x1024 .f32) (b : Fin 8) (n : Fin 4096) (h : Fin 1024) :
    Term.summed (F := Ideal) sent pe (ix3 b n h) = Cert.RowNorm.emb sent pe b n h := by
  unfold Term.summed
  rw [addf_apply, addf_apply, overBatch_apply, firstRows_apply, rows_apply, rows_apply, col0_apply, col1_apply]
  rfl

/-! ## The row length, and sums along the last axis -/

/-- The row-length literal denotes the real 1024. -/
theorem width_eq : Cert.RowNorm.width = ((1024 : ℝ) : EReal) := by
  unfold Cert.RowNorm.width
  simp [Ideal.ofBits, Ideal.ieee, -EReal.coe_mul]; norm_num

/-- The row length is positive. -/
theorem width_pos : (0 : EReal) < Cert.RowNorm.width := by
  rw [width_eq]
  exact EReal.coe_pos.mpr (by norm_num)

/-- A sum along the last axis from the zero word reads, at (b, n), the sum of the row's 1024 entries. -/
theorem rowSum_apply (e : FVec Ideal S8x4096x1024 .f32) (b : Fin 8) (n : Fin 4096) :
    Host.reduceAdd (F := Ideal) e (constant (F := Ideal) S_ .f32 0x00000000#32)
        Facts₀.reducesTo_S8x4096x1024_S8x4096_d2 Facts₀.h_S_ (ix2 b n)
      = ∑ k : Fin 1024, e (ix3 b n k) := by
  have hr : S8x4096x1024.Reduces [2] S8x4096 := by decide
  rw [hostReduceAdd_apply, Ideal.hostReduceAdd_single _ hr, constant_apply, Ideal.ofBits_zero_f32, zero_add]
  refine Finset.sum_congr rfl fun k _ => congrArg e ?_
  funext a
  match a with
  | ⟨0, _⟩ => rfl
  | ⟨1, _⟩ => rfl
  | ⟨2, _⟩ => rfl

/-- THE MEAN COLUMN: at (b, n, 0), the mean of the row at (b, n). -/
theorem meanCol_apply (e : FVec Ideal S8x4096x1024 .f32) (b : Fin 8) (n : Fin 4096) (u : Fin 1) :
    Term.meanCol (F := Ideal) e (ix3 b n u) = Cert.RowNorm.mean fun k => e (ix3 b n k) := by
  unfold Term.meanCol
  rw [hostDivf_apply, column_apply, rowSum_apply, broadcastInDim_scalar_apply, constant_apply]
  rfl

/-- The divisor is the row length: the correction word is zero. -/
theorem divisor_apply : Term.divisor (F := Ideal) ix0 = Cert.RowNorm.width := by
  unfold Term.divisor
  rw [subf_apply, constant_apply, sitofp_apply, constantI_apply]
  show Cert.RowNorm.width - (((0#32 : BitVec 32).toInt : ℝ) : EReal) = Cert.RowNorm.width
  rw [show (0#32 : BitVec 32).toInt = 0 by decide, Int.cast_zero, EReal.coe_zero, sub_zero]

/-- The divisor is positive, so the comparison against zero gives the bit 1. -/
theorem divisor_pos_bit :
    cmpf .ogt (Term.divisor (F := Ideal)) (constant (F := Ideal) S_ .f32 0x00000000#32) ix0 = 1#1 := by
  rw [cmpf_apply, divisor_apply, constant_apply, Ideal.ofBits_zero_f32, Ideal.cmpf_def]
  show BitVec.ofBool (decide ((0 : EReal) < Cert.RowNorm.width)) = 1#1
  rw [decide_eq_true width_pos]
  rfl

/-- THE VARIANCE COLUMN: at (b, n, 0), the variance of the row at (b, n) about its mean. -/
theorem varCol_apply (e : FVec Ideal S8x4096x1024 .f32) (b : Fin 8) (n : Fin 4096) (u : Fin 1) :
    Term.varCol (F := Ideal) e (ix3 b n u) = Cert.RowNorm.var fun k => e (ix3 b n k) := by
  unfold Term.varCol
  rw [select_apply, broadcastInDim_scalar_apply, divisor_pos_bit, select_one, hostDivf_apply, column_apply,
    rowSum_apply, broadcastInDim_scalar_apply, divisor_apply]
  unfold Cert.RowNorm.var
  refine congrArg (fun s => Ideal.div s Cert.RowNorm.width) (Finset.sum_congr rfl fun k _ => ?_)
  rw [mulf_apply, subf_apply, alongRow_apply, meanCol_apply]

/-- A vector laid along the last axis reads, at (b, n, h), the vector at h. -/
theorem alongLast_apply (v : FVec Ideal S1024 .f32) (b : Fin 8) (n : Fin 4096) (h : Fin 1024) :
    Term.alongLast (F := Ideal) v (ix3 b n h) = v (ix1 h) := by
  unfold Term.alongLast
  exact lastAxis_apply v b n h

/-! ## The result -/

/-- THE REFERENCE'S RESULT IS THE SPECIFICATION. -/
theorem result_eq (sent : IVec S8x4096x2 32) (pe : FVec Ideal S5000x1024 .f32) (gamma beta : FVec Ideal S1024 .f32) :
    Term.result (F := Ideal) sent pe gamma beta = Cert.RowNorm.G sent pe gamma beta := by
  funext j
  obtain ⟨b, n, h, rfl⟩ : ∃ (b : Fin 8) (n : Fin 4096) (h : Fin 1024), j = ix3 b n h := ⟨j 0, j 1, j 2, eq_ix3 j⟩
  unfold Term.result
  rw [addf_apply, mulf_apply, mulf_apply, subf_apply, alongRow_apply, alongRow_apply, meanCol_apply,
    alongLast_apply, alongLast_apply]
  show _ * Ideal.rsqrt (Term.varCol (F := Ideal) (Term.summed (F := Ideal) sent pe) (ix3 b n (0 : Fin 1))
      + broadcastInDim S8x4096x1 ![] Facts₀.bcast_S_S8x4096x1 (constant (F := Ideal) S_ .f32 0x2B8CBCCC#32) (ix3 b n (0 : Fin 1)))
      * _ + _ = _
  rw [varCol_apply, broadcastInDim_scalar_apply, constant_apply]
  have hrow : (fun k => Term.summed (F := Ideal) sent pe (ix3 b n k)) = Cert.RowNorm.emb sent pe b n :=
    funext fun k => summed_apply sent pe b n k
  rw [hrow, summed_apply]
  rfl

end Cert.ReferenceIdeal.RefValue

end
-- ==== Proof.lean ====
/-
  The certificate: a kernel that adds three rows of a positional table and normalises the sum, against the same
  computation written with array indexing.

  Both programs compute, at batch b, position n and column h, entry h of the row
      table[n] + table[first word at (b, n)] + table[second word at (b, n)]
  centred by its mean, scaled by the reciprocal square root of its variance plus a small constant, times a gain,
  plus an offset. The reference reads the two rows by indexing; the kernel multiplies a matrix of 0/1 rows (ones at
  the two words' columns) into the table padded with 120 zero rows. The two agree exactly when each word is a row
  number of the table, 0 ≤ word < 5000: outside that range the reference's indexing wraps or clamps the word while
  the kernel's 0/1 row is empty or lands on a zero row. The precondition states that range, and no finiteness of
  the table is used: a sum against a 0/1 row needs only that the extended reals' product distributes over a sum
  of non-negative factors.

  Each of the three programs runs to the end and leaves its arguments unchanged: the kernel and its reading at the
  ideal values by their runs over the grid, the reference by the run of its straight line of tensor operations (its
  variance helper and the select inside it taken at their calls). The idealised kernel is the kernel's own text read
  at the ideal values, so nothing is owed for it.
-/
import proofs.«428590_j52295521796615_1_alg».proof.Defs
import proofs.«428590_j52295521796615_1_alg».proof.Proof.Gen.Kernel
import proofs.«428590_j52295521796615_1_alg».proof.Proof.Gen.Kernel.Skeleton
import proofs.«428590_j52295521796615_1_alg».proof.Proof.Gen.Kernel.Launch
import proofs.«428590_j52295521796615_1_alg».proof.Proof.Gen.Kernel.Points
import proofs.«428590_j52295521796615_1_alg».proof.Proof.Gen.Kernel.Frame
import proofs.«428590_j52295521796615_1_alg».proof.Proof.Gen.KernelIdeal
import proofs.«428590_j52295521796615_1_alg».proof.Proof.Gen.KernelIdeal.Skeleton
import proofs.«428590_j52295521796615_1_alg».proof.Proof.Gen.KernelIdeal.Launch
import proofs.«428590_j52295521796615_1_alg».proof.Proof.Gen.KernelIdeal.Points
import proofs.«428590_j52295521796615_1_alg».proof.Proof.Gen.KernelIdeal.Frame
import proofs.«428590_j52295521796615_1_alg».proof.Proof.Gen.KernelIdeal.Value
import proofs.«428590_j52295521796615_1_alg».proof.Proof.Gen.ReferenceIdeal
import proofs.«428590_j52295521796615_1_alg».proof.Proof.Gen.Pre_finite_inputs
import Idealize.ShloMosaic.Adequacy
import Idealize.ShloMosaic.Init
import proofs.«428590_j52295521796615_1_alg».proof.Proof.KernelFinal
import proofs.«428590_j52295521796615_1_alg».proof.Proof.RefRun
import proofs.«428590_j52295521796615_1_alg».proof.Proof.RefValue

noncomputable section

namespace Cert.Proof

open Idealize.ShloMosaic Idealize.ShloMosaic.TcCoe Idealize.SL.Sem

/-- The kernel as printed, and its reading at the ideal values: both run to the end and leave their arguments alone. -/
theorem frame_k : Cert.frame_Kernel := fun m ρ _ => Cert.Kernel.Gen.frame m ρ
theorem frame_ki : Cert.frame_KernelIdeal := fun m ρ _ => Cert.KernelIdeal.Gen.frame m ρ

/-- The reference runs to the end and leaves its arguments alone: its run, with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The idealised kernel is the kernel's text unchanged. -/
theorem preserves : Cert.preserves_Kernel_KernelIdeal := trivial

/-- From memories that agree on the arguments, with every position word a row number of the table, both programs
    end with the specification of the same four arrays in their result. -/
theorem algebraic : Cert.algebraic_KernelIdeal_ReferenceIdeal := by
  intro m ρ m' ρ' hpre hagree
  have hw : ∀ (c : Dev Cert.KernelIdeal.nD) (i : Cert.KernelIdeal.S8x4096x2.Idx),
      ((m ((c : Thread Cert.KernelIdeal.nD Cert.KernelIdeal.τ).loc Cert.KernelIdeal.main_arg1) : Cert.KernelIdeal.S8x4096x2.Idx → BitVec 32) i).toNat < 5000 :=
    fun c i => Cert.KernelIdeal.HostSide.words_lt m hpre c i
  refine ⟨fun c => Cert.KernelIdeal.Final.result m c, Cert.KernelIdeal.Final.run m ρ hw, ?_⟩
  refine (θ_run Cert.ReferenceIdeal.defs _ _).mono (fun _ h c => ⟨(h c).1.trans ?_, (h c).2⟩)
    (Cert.ReferenceIdeal.HandRun.run (F := Ideal) m' ρ')
  rw [(hagree c).2.1, (hagree c).2.2.1, (hagree c).2.2.2.1, (hagree c).2.2.2.2]
  exact Cert.ReferenceIdeal.RefValue.result_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
